-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S1024x2048x11 : Shape := ⟨3, ![1024, 2048, 11]⟩
abbrev S1024x2048x1 : Shape := ⟨3, ![1024, 2048, 1]⟩
abbrev S1024x2048 : Shape := ⟨2, ![1024, 2048]⟩
abbrev S_ : Shape := ⟨0, ![]⟩

class Facts : Prop where
  slices_S1024x2048x11_S1024x2048x1_0_0_0 : S1024x2048x11.Slices ![0, 0, 0] S1024x2048x1
  shapeCasts_S1024x2048x1_S1024x2048 : S1024x2048x1.ShapeCasts S1024x2048
  bcast_S_S1024x2048 : S_.BroadcastsInDim S1024x2048 (![] : Fin 0 → Fin S1024x2048.rank)
  reducesTo_S1024x2048_S_d0_1 : S1024x2048.ReducesTo [0, 1] S_
  h_S_ : 0 < S_.numel

variable [Facts]

def fn {F : FTy → Type} [FloatOps F] (main_arg0 : IVec S1024x2048x11 32) : IVec S_ 1 :=
  let main_v0 : IVec S1024x2048x1 32 := (extractStridedSlice S1024x2048x1 ![0, 0, 0] · slices_S1024x2048x11_S1024x2048x1_0_0_0) main_arg0
  let main_v1 : IVec S1024x2048 32 := shapeCast S1024x2048 main_v0 shapeCasts_S1024x2048x1_S1024x2048
  let main_c : IVec S_ 32 := constantI S_ 32 0#32
  let main_v2 : IVec S1024x2048 32 := broadcastInDim S1024x2048 ![] bcast_S_S1024x2048 main_c
  let main_v3 : IVec S1024x2048 1 := cmpi .sge main_v1 main_v2
  let main_c_0 : IVec S_ 1 := constantI S_ 1 1#1
  let main_v4 : IVec S_ 1 := (fun x v => Host.reduce IntOp.andi x v reducesTo_S1024x2048_S_d0_1 h_S_) main_v3 main_c_0
  main_v4
-- ==== Kernel.lean ====
abbrev S1024x2048x11 : Shape := ⟨3, ![1024, 2048, 11]⟩
abbrev S1024x2048x1 : Shape := ⟨3, ![1024, 2048, 1]⟩
abbrev S1024x2048 : Shape := ⟨2, ![1024, 2048]⟩
abbrev S_ : Shape := ⟨0, ![]⟩
abbrev S1024x2047 : Shape := ⟨2, ![1024, 2047]⟩
abbrev S1024x1 : Shape := ⟨2, ![1024, 1]⟩
abbrev S1024x8x2048 : Shape := ⟨3, ![1024, 8, 2048]⟩
abbrev S128x2048 : Shape := ⟨2, ![128, 2048]⟩
abbrev S128x8x2048 : Shape := ⟨3, ![128, 8, 2048]⟩
abbrev S128x1x2048 : Shape := ⟨3, ![128, 1, 2048]⟩
abbrev S1024x2048x8 : Shape := ⟨3, ![1024, 2048, 8]⟩

abbrev nBuf : Space → Nat
  | .hbm => 29
  | .vmem => 8
  | .smem => 0
  | _ => 0

abbrev bufTy : (tb : Table) → Fin (tcTables nBuf tb) → BufTy
  | .hbm, ⟨0, _⟩ => ⟨S1024x2048x11, .i32⟩
  | .hbm, ⟨1, _⟩ => ⟨S1024x2048x1, .i32⟩
  | .hbm, ⟨2, _⟩ => ⟨S1024x2048, .i32⟩
  | .hbm, ⟨3, _⟩ => ⟨S_, .i32⟩
  | .hbm, ⟨4, _⟩ => ⟨S1024x2048, .i32⟩
  | .hbm, ⟨5, _⟩ => ⟨S1024x2048, .i1⟩
  | .hbm, ⟨6, _⟩ => ⟨S1024x2048, .i32⟩
  | .hbm, ⟨7, _⟩ => ⟨S_, .i32⟩
  | .hbm, ⟨8, _⟩ => ⟨S1024x2048, .i32⟩
  | .hbm, ⟨9, _⟩ => ⟨S1024x2048, .i1⟩
  | .hbm, ⟨10, _⟩ => ⟨S1024x2048, .i32⟩
  | .hbm, ⟨11, _⟩ => ⟨S_, .i32⟩
  | .hbm, ⟨12, _⟩ => ⟨S_, .i32⟩
  | .hbm, ⟨13, _⟩ => ⟨S1024x2048, .i32⟩
  | .hbm, ⟨14, _⟩ => ⟨S_, .i32⟩
  | .hbm, ⟨15, _⟩ => ⟨S_, .i32⟩
  | .hbm, ⟨16, _⟩ => ⟨S1024x2048, .i32⟩
  | .hbm, ⟨17, _⟩ => ⟨S1024x2047, .i32⟩
  | .hbm, ⟨18, _⟩ => ⟨S1024x1, .i32⟩
  | .hbm, ⟨19, _⟩ => ⟨S1024x2048, .i32⟩
  | .hbm, ⟨20, _⟩ => ⟨S1024x2047, .i32⟩
  | .hbm, ⟨21, _⟩ => ⟨S1024x1, .i32⟩
  | .hbm, ⟨22, _⟩ => ⟨S1024x2048, .i32⟩
  | .hbm, ⟨23, _⟩ => ⟨S1024x8x2048, .i32⟩
  | .hbm, ⟨24, _⟩ => ⟨S1024x2048x8, .i32⟩
  | .hbm, ⟨25, _⟩ => ⟨S_, .i32⟩
  | .hbm, ⟨26, _⟩ => ⟨S1024x2048x8, .i32⟩
  | .hbm, ⟨27, _⟩ => ⟨S1024x2048x8, .i1⟩
  | .hbm, ⟨28, _⟩ => ⟨S1024x2048x8, .i1⟩
  | .local _ .vmem, ⟨0, _⟩ => ⟨S128x2048, .i32⟩
  | .local _ .vmem, ⟨1, _⟩ => ⟨S128x2048, .i32⟩
  | .local _ .vmem, ⟨2, _⟩ => ⟨S128x2048, .i32⟩
  | .local _ .vmem, ⟨3, _⟩ => ⟨S128x2048, .i32⟩
  | .local _ .vmem, ⟨4, _⟩ => ⟨S128x2048, .i32⟩
  | .local _ .vmem, ⟨5, _⟩ => ⟨S128x2048, .i32⟩
  | .local _ .vmem, ⟨6, _⟩ => ⟨S128x8x2048, .i32⟩
  | .local _ .vmem, ⟨7, _⟩ => ⟨S128x8x2048, .i32⟩
  | _, _ => ⟨S1024x2048x11, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_call0_c : Ref sig .tc := ⟨.hbm, 11, rfl⟩
abbrev main_call0_call0_v0 : Ref sig .tc := ⟨.hbm, 12, rfl⟩
abbrev main_v8 : Ref sig .tc := ⟨.hbm, 13, rfl⟩
abbrev main_call1_call0_c : Ref sig .tc := ⟨.hbm, 14, rfl⟩
abbrev main_call1_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S1024x2048x11_S1024x2048x1_0_0_0 : S1024x2048x11.Slices ![0, 0, 0] S1024x2048x1
  shapeCasts_S1024x2048x1_S1024x2048 : S1024x2048x1.ShapeCasts S1024x2048
  bcast_S_S1024x2048 : S_.BroadcastsInDim S1024x2048 (![] : Fin 0 → Fin S1024x2048.rank)
  natLt_1_32 : 1 < 32
  bcast_S_S_ : S_.BroadcastsInDim S_ (![] : Fin 0 → Fin S_.rank)
  reduceWindows_S1024x2048_S1024x2048_w1s1p0_0_w2048s1p2047_0 : S1024x2048.ReduceWindows (![1, 2048] : Fin 2 → Nat) ![1, 1] ![0, 2047] ![0, 0] S1024x2048
  h_S_ : 0 < S_.numel
  slices_S1024x2048_S1024x2047_0_1 : S1024x2048.Slices ![0, 1] S1024x2047
  slices_S1024x2048_S1024x1_0_2047 : S1024x2048.Slices ![0, 2047] S1024x1
  concatenates_S1024x2047_S1024x1_S1024x2048_d1 : Shape.Concatenates [S1024x2047, S1024x1] S1024x2048 1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x8x2048_S128x1x2048_0_0_0 : ∀ a, (![0, 0, 0] : Fin 3 → Nat) a + S128x1x2048.size a ≤ S128x8x2048.size a
  h_S128x1x2048 : 0 < S128x1x2048.numel
  shapeCasts_S128x1x2048_S128x2048 : S128x1x2048.ShapeCasts S128x2048
  shapeCasts_S128x2048_S128x1x2048 : S128x2048.ShapeCasts S128x1x2048
  inb_S128x8x2048_S128x1x2048_0_1_0 : ∀ a, (![0, 1, 0] : Fin 3 → Nat) a + S128x1x2048.size a ≤ S128x8x2048.size a
  inb_S128x8x2048_S128x1x2048_0_2_0 : ∀ a, (![0, 2, 0] : Fin 3 → Nat) a + S128x1x2048.size a ≤ S128x8x2048.size a
  inb_S128x8x2048_S128x1x2048_0_3_0 : ∀ a, (![0, 3, 0] : Fin 3 → Nat) a + S128x1x2048.size a ≤ S128x8x2048.size a
  inb_S128x8x2048_S128x1x2048_0_4_0 : ∀ a, (![0, 4, 0] : Fin 3 → Nat) a + S128x1x2048.size a ≤ S128x8x2048.size a
  inb_S128x8x2048_S128x1x2048_0_5_0 : ∀ a, (![0, 5, 0] : Fin 3 → Nat) a + S128x1x2048.size a ≤ S128x8x2048.size a
  inb_S128x8x2048_S128x1x2048_0_6_0 : ∀ a, (![0, 6, 0] : Fin 3 → Nat) a + S128x1x2048.size a ≤ S128x8x2048.size a
  inb_S128x8x2048_S128x1x2048_0_7_0 : ∀ a, (![0, 7, 0] : Fin 3 → Nat) a + S128x1x2048.size a ≤ S128x8x2048.size a
  transposes_S1024x8x2048_S1024x2048x8_0_2_1 : S1024x8x2048.Transposes [0, 2, 1] S1024x2048x8
  bcast_S_S1024x2048x8 : S_.BroadcastsInDim S1024x2048x8 (![] : Fin 0 → Fin S1024x2048x8.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S1024x2048.size a
  hwx0_0 : ∀ i : grid0.Coords, EltTy.bits .i32 = 32 ∨ (Rect.block (s := S1024x2048) S128x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S1024x2048.size a
  hwx0_1 : ∀ i : grid0.Coords, EltTy.bits .i32 = 32 ∨ (Rect.block (s := S1024x2048) S128x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S1024x2048.size a
  hwx0_2 : ∀ i : grid0.Coords, EltTy.bits .i32 = 32 ∨ (Rect.block (s := S1024x2048) S128x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8x2048.size a ≤ S1024x8x2048.size a
  hwx0_3 : ∀ i : grid0.Coords, EltTy.bits .i32 = 32 ∨ (Rect.block (s := S1024x8x2048) S128x8x2048.size (cc0_transform_3 i) (hinb0_3 i)).WholeWords (EltTy.packing .i32)

variable [Facts₀]

abbrev win0_0 : Pipeline.Window sig grid0 :=
  Pipeline.Window.ofSpec (Memref.whole main_v1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x8x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x2048x11 : Shape := ⟨3, ![1024, 2048, 11]⟩
abbrev S9x8 : Shape := ⟨2, ![9, 8]⟩
abbrev S8 : Shape := ⟨1, ![8]⟩
abbrev S1024x2048x1 : Shape := ⟨3, ![1024, 2048, 1]⟩
abbrev S1024x2048 : Shape := ⟨2, ![1024, 2048]⟩
abbrev S_ : Shape := ⟨0, ![]⟩
abbrev S1024x2048x8 : Shape := ⟨3, ![1024, 2048, 8]⟩
abbrev S2048 : Shape := ⟨1, ![2048]⟩
abbrev S2048x1 : Shape := ⟨2, ![2048, 1]⟩

abbrev nBuf : Space → Nat
  | .hbm => 88
  | .vmem => 0
  | .smem => 0
  | _ => 0

abbrev bufTy : (tb : Table) → Fin (tcTables nBuf tb) → BufTy
  | .hbm, ⟨0, _⟩ => ⟨S1024x2048x11, .i32⟩
  | .hbm, ⟨1, _⟩ => ⟨S9x8, .i1⟩
  | .hbm, ⟨2, _⟩ => ⟨S8, .i1⟩
  | .hbm, ⟨3, _⟩ => ⟨S8, .i1⟩
  | .hbm, ⟨4, _⟩ => ⟨S8, .i1⟩
  | .hbm, ⟨5, _⟩ => ⟨S1024x2048x1, .i32⟩
  | .hbm, ⟨6, _⟩ => ⟨S1024x2048, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024x2048, .i32⟩
  | .hbm, ⟨11, _⟩ => ⟨S1024x2048, .i32⟩
  | .hbm, ⟨12, _⟩ => ⟨S_, .i32⟩
  | .hbm, ⟨13, _⟩ => ⟨S1024x2048, .i32⟩
  | .hbm, ⟨14, _⟩ => ⟨S1024x2048, .i32⟩
  | .hbm, ⟨15, _⟩ => ⟨S_, .i32⟩
  | .hbm, ⟨16, _⟩ => ⟨S1024x2048, .i32⟩
  | .hbm, ⟨17, _⟩ => ⟨S1024x2048, .i1⟩
  | .hbm, ⟨18, _⟩ => ⟨S_, .i32⟩
  | .hbm, ⟨19, _⟩ => ⟨S1024x2048, .i32⟩
  | .hbm, ⟨20, _⟩ => ⟨S1024x2048, .i32⟩
  | .hbm, ⟨21, _⟩ => ⟨S1024x2048, .i32⟩
  | .hbm, ⟨22, _⟩ => ⟨S1024x2048x1, .i32⟩
  | .hbm, ⟨23, _⟩ => ⟨S1024x2048x8, .i1⟩
  | .hbm, ⟨24, _⟩ => ⟨S_, .i32⟩
  | .hbm, ⟨25, _⟩ => ⟨S1024x2048, .i32⟩
  | .hbm, ⟨26, _⟩ => ⟨S1024x2048, .i1⟩
  | .hbm, ⟨27, _⟩ => ⟨S1024x2048, .i32⟩
  | .hbm, ⟨28, _⟩ => ⟨S_, .i32⟩
  | .hbm, ⟨29, _⟩ => ⟨S1024x2048, .i32⟩
  | .hbm, ⟨30, _⟩ => ⟨S1024x2048, .i1⟩
  | .hbm, ⟨31, _⟩ => ⟨S1024x2048, .i32⟩
  | .hbm, ⟨32, _⟩ => ⟨S_, .i32⟩
  | .hbm, ⟨33, _⟩ => ⟨S_, .i32⟩
  | .hbm, ⟨34, _⟩ => ⟨S1024x2048, .i32⟩
  | .hbm, ⟨35, _⟩ => ⟨S_, .i32⟩
  | .hbm, ⟨36, _⟩ => ⟨S_, .i32⟩
  | .hbm, ⟨37, _⟩ => ⟨S1024x2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S2048x1, .i32⟩
  | .hbm, ⟨53, _⟩ => ⟨S1024x2048, .i32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .i32⟩
  | .hbm, ⟨61, _⟩ => ⟨S2048x1, .i32⟩
  | .hbm, ⟨62, _⟩ => ⟨S1024x2048, .i32⟩
  | .hbm, ⟨63, _⟩ => ⟨S_, .i32⟩
  | .hbm, ⟨64, _⟩ => ⟨S1024x2048, .i32⟩
  | .hbm, ⟨65, _⟩ => ⟨S1024x2048, .i1⟩
  | .hbm, ⟨66, _⟩ => ⟨S1024x2048x1, .i1⟩
  | .hbm, ⟨67, _⟩ => ⟨S_, .i32⟩
  | .hbm, ⟨68, _⟩ => ⟨S1024x2048, .i32⟩
  | .hbm, ⟨69, _⟩ => ⟨S1024x2048, .i1⟩
  | .hbm, ⟨70, _⟩ => ⟨S1024x2048x1, .i1⟩
  | .hbm, ⟨71, _⟩ => ⟨S1024x2048x8, .i1⟩
  | .hbm, ⟨72, _⟩ => ⟨S1024x2048x8, .i1⟩
  | .hbm, ⟨73, _⟩ => ⟨S1024x2048x8, .i1⟩
  | .hbm, ⟨74, _⟩ => ⟨S1024x2048x8, .i1⟩
  | .hbm, ⟨75, _⟩ => ⟨S1024x2048x8, .i1⟩
  | .hbm, ⟨76, _⟩ => ⟨S1024x2048x8, .i1⟩
  | .hbm, ⟨77, _⟩ => ⟨S1024x2048x8, .i1⟩
  | .hbm, ⟨78, _⟩ => ⟨S_, .i32⟩
  | .hbm, ⟨79, _⟩ => ⟨S1024x2048, .i32⟩
  | .hbm, ⟨80, _⟩ => ⟨S1024x2048, .i1⟩
  | .hbm, ⟨81, _⟩ => ⟨S_, .i32⟩
  | .hbm, ⟨82, _⟩ => ⟨S1024x2048, .i32⟩
  | .hbm, ⟨83, _⟩ => ⟨S1024x2048, .i1⟩
  | .hbm, ⟨84, _⟩ => ⟨S1024x2048, .i1⟩
  | .hbm, ⟨85, _⟩ => ⟨S1024x2048x1, .i1⟩
  | .hbm, ⟨86, _⟩ => ⟨S1024x2048x8, .i1⟩
  | .hbm, ⟨87, _⟩ => ⟨S1024x2048x8, .i1⟩
  | _, _ => ⟨S1024x2048x11, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_v1 : Ref sig .tc := ⟨.hbm, 6, rfl⟩
abbrev main_c_3 : Ref sig .tc := ⟨.hbm, 7, rfl⟩
abbrev main_c_4 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_c_5 : Ref sig .tc := ⟨.hbm, 15, rfl⟩
abbrev main_v3 : Ref sig .tc := ⟨.hbm, 16, rfl⟩
abbrev main_v4 : Ref sig .tc := ⟨.hbm, 17, rfl⟩
abbrev main_c_6 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_7 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_8 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_call0_c : Ref sig .tc := ⟨.hbm, 32, rfl⟩
abbrev main_call1_call0_v0 : Ref sig .tc := ⟨.hbm, 33, rfl⟩
abbrev main_v16 : Ref sig .tc := ⟨.hbm, 34, rfl⟩
abbrev main_call2_call0_c : Ref sig .tc := ⟨.hbm, 35, rfl⟩
abbrev main_call2_call0_v0 : Ref sig .tc := ⟨.hbm, 36, rfl⟩
abbrev main_v17 : Ref sig .tc := ⟨.hbm, 37, rfl⟩
abbrev main_v18 : Ref sig .tc := ⟨.hbm, 38, rfl⟩
abbrev main_c_9 : Ref sig .tc := ⟨.hbm, 39, rfl⟩
abbrev main_v19 : Ref sig .tc := ⟨.hbm, 40, rfl⟩
abbrev main_v20 : Ref sig .tc := ⟨.hbm, 41, rfl⟩
abbrev main_c_10 : Ref sig .tc := ⟨.hbm, 42, rfl⟩
abbrev main_v21 : Ref sig .tc := ⟨.hbm, 43, rfl⟩
abbrev main_v22 : Ref sig .tc := ⟨.hbm, 44, rfl⟩
abbrev main_c_11 : Ref sig .tc := ⟨.hbm, 45, rfl⟩
abbrev main_v23 : Ref sig .tc := ⟨.hbm, 46, rfl⟩
abbrev main_v24 : Ref sig .tc := ⟨.hbm, 47, rfl⟩
abbrev main_c_12 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_13 : Ref sig .tc := ⟨.hbm, 54, rfl⟩
abbrev main_v30 : Ref sig .tc := ⟨.hbm, 55, rfl⟩
abbrev main_v31 : Ref sig .tc := ⟨.hbm, 56, rfl⟩
abbrev main_c_14 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_15 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_16 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v43 : Ref sig .tc := ⟨.hbm, 74, rfl⟩
abbrev main_call4_v0 : Ref sig .tc := ⟨.hbm, 75, rfl⟩
abbrev main_call4_v1 : Ref sig .tc := ⟨.hbm, 76, rfl⟩
abbrev main_v44 : Ref sig .tc := ⟨.hbm, 77, rfl⟩
abbrev main_c_17 : Ref sig .tc := ⟨.hbm, 78, rfl⟩
abbrev main_v45 : Ref sig .tc := ⟨.hbm, 79, rfl⟩
abbrev main_v46 : Ref sig .tc := ⟨.hbm, 80, rfl⟩
abbrev main_c_18 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_call5_v0 : Ref sig .tc := ⟨.hbm, 86, rfl⟩
abbrev main_v51 : Ref sig .tc := ⟨.hbm, 87, rfl⟩

abbrev nD : Nat := 1
abbrev τ : Topo := Topo.v7x

variable {F : FTy → Type} [FloatOps F]

class Facts₀ : Prop where
  slices_S1024x2048x11_S1024x2048x1_0_0_0 : S1024x2048x11.Slices ![0, 0, 0] S1024x2048x1
  shapeCasts_S1024x2048x1_S1024x2048 : S1024x2048x1.ShapeCasts S1024x2048
  bcast_S_S1024x2048 : S_.BroadcastsInDim S1024x2048 (![] : Fin 0 → Fin S1024x2048.rank)
  bcast_S1024x2048_S1024x2048x1_0_1 : S1024x2048.BroadcastsInDim S1024x2048x1 (![0, 1] : Fin 2 → Fin S1024x2048x1.rank)
  natLt_1_32 : 1 < 32
  bcast_S_S_ : S_.BroadcastsInDim S_ (![] : Fin 0 → Fin S_.rank)
  reduceWindows_S1024x2048_S1024x2048_w1s1p0_0_w2048s1p2047_0 : S1024x2048.ReduceWindows (![1, 2048] : Fin 2 → Nat) ![1, 1] ![0, 2047] ![0, 0] S1024x2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S1024x2048x1_S1024x2048x8_0_1_2 : S1024x2048x1.BroadcastsInDim S1024x2048x8 (![0, 1, 2] : Fin 3 → Fin S1024x2048x8.rank)
  bcast_S8_S1024x2048x8_2 : S8.BroadcastsInDim S1024x2048x8 (![2] : Fin 1 → Fin S1024x2048x8.rank)
  gather_S9x8_S1024x2048x1_S1024x2048x8_2_0_n_n_0_2_18_wf : GatherDims.WF S9x8 S1024x2048x1 S1024x2048x8 [2] [0] [] [0] [] 2 ![1, 8]
  gather_S1024x2048_S2048x1_S1024x2048_0_1_n_n_1_1_10241_wf : GatherDims.WF S1024x2048 S2048x1 S1024x2048 [0] [1] [] [1] [] 1 ![1024, 1]

variable [Facts₀]

def gather_S9x8_S1024x2048x1_S1024x2048x8_2_0_n_n_0_2_18 : GatherDims S9x8 S1024x2048x1 S1024x2048x8 where
  offsetDims := [2]
  collapsedSliceDims := [0]
  operandBatchingDims := []
  startIndicesBatchingDims := []
  startIndexMap := [0]
  indexVectorDim := 2
  sliceSizes := ![1, 8]
  wf := gather_S9x8_S1024x2048x1_S1024x2048x8_2_0_n_n_0_2_18_wf
def gather_S1024x2048_S2048x1_S1024x2048_0_1_n_n_1_1_10241 : GatherDims S1024x2048 S2048x1 S1024x2048 where
  offsetDims := [0]
  collapsedSliceDims := [1]
  operandBatchingDims := []
  startIndicesBatchingDims := []
  startIndexMap := [1]
  indexVectorDim := 1
  sliceSizes := ![1024, 1]
  wf := gather_S1024x2048_S2048x1_S1024x2048_0_1_n_n_1_1_10241_wf

class Facts : Prop extends Facts₀ where

variable [Facts]
-- ==== Proof.Spec.lean ====
/-
  What both programs compute, stated once and over no program.

  The input is an integer array [1024, 2048, 11]; feature 0 of a position is its TOKEN TYPE. Every position gets eight
  mask bits. The bits depend on three words: the position's type `g`, and two running counts read ONE POSITION AHEAD
  (at the last position, at that position itself): how many positions of the row, up to and including the one read, have
  type 5, and how many have type 6. Types 0, 1, 2, 3 and 7 each select a fixed row of bits; types 4 to 6 select one of
  three rows by the counts (no type 5 seen yet; else no type 6 seen yet; else both seen); every other type selects the
  zero row. The running counts are the inclusive prefix sums of the indicator words along a row; they are carried as one
  function of the input (`count`), never opened: both programs compute them by the same windowed sum.
-/
import Idealize.ShloMosaic.PureOps
import Idealize.ShloMosaic.Lib.ValueIdx

noncomputable section

namespace Cert.MaskSpec

open Idealize.ShloMosaic Idealize.ShloMosaic.ValueIdx

/-- The input's shape, -/
abbrev SIn : Shape := ⟨3, ![1024, 2048, 11]⟩
/-- one feature of it as a column, -/
abbrev SCol : Shape := ⟨3, ![1024, 2048, 1]⟩
/-- a word per position, -/
abbrev SBL : Shape := ⟨2, ![1024, 2048]⟩
/-- a scalar, -/
abbrev S0 : Shape := ⟨0, ![]⟩
/-- the result: eight bits per position, -/
abbrev SOut : Shape := ⟨3, ![1024, 2048, 8]⟩
/-- and the same with the bit axis in the middle. -/
abbrev SMid : Shape := ⟨3, ![1024, 8, 2048]⟩

/-- The token type of every position: feature 0 of the input. -/
def tok (x : IVec SIn 32) : IVec SBL 32 :=
  shapeCast SBL (extractStridedSlice SCol ![0, 0, 0] x (by decide)) (by decide)

/-- The indicator word of "the type is `v`": 1 where it is, 0 elsewhere. -/
def isType (v : BitVec 32) (x : IVec SIn 32) : IVec SBL 32 :=
  extui 32 (cmpi .eq (tok x) (broadcastInDim SBL ![] (by decide) (constantI S0 32 v))) (by decide)

/-- Along each row, the inclusive prefix sums of an array of words: entry `(b, l)` is the sum of row `b`'s entries `0 … l`
    (a window of 2048 positions ending at `l`, the part before the row's start padded with the sum's zero). -/
def prefixSums (y : IVec SBL 32) : IVec SBL 32 :=
  Host.reduceWindow IntOp.addi (![1, 2048] : Fin 2 → Nat) ![1, 1] ![0, 2047] ![0, 0] y
    (broadcastInDim S0 ![] (by decide) (constantI S0 32 0#32)) (by decide) (by decide)

/-- How many positions of the row, up to and including this one, have type `v`. -/
def count (v : BitVec 32) (x : IVec SIn 32) : IVec SBL 32 := prefixSums (isType v x)

/-- The position whose count a position reads: the next one, and the last position its own. -/
def nxt (l : Fin 2048) : Fin 2048 := ⟨min (l.val + 1) 2047, by omega⟩

/-- The count of type `v` as position `(b, l)` reads it: at `(b, nxt l)`. -/
def ahead (v : BitVec 32) (x : IVec SIn 32) : IVec SBL 32 := fun i => count v x (ix2 (i 0) (nxt (i 1)))

/-- The bit rows: types 0, 1, 2, 3 and 7, -/
def row0 : Fin 8 → BitVec 1 := ![0#1, 1#1, 0#1, 0#1, 0#1, 0#1, 0#1, 0#1]
def row1 : Fin 8 → BitVec 1 := ![0#1, 1#1, 1#1, 0#1, 0#1, 0#1, 0#1, 0#1]
def row2 : Fin 8 → BitVec 1 := ![0#1, 0#1, 0#1, 0#1, 1#1, 0#1, 0#1, 0#1]
def row3 : Fin 8 → BitVec 1 := ![0#1, 0#1, 0#1, 1#1, 1#1, 1#1, 1#1, 1#1]
def row7 : Fin 8 → BitVec 1 := ![0#1, 0#1, 0#1, 0#1, 0#1, 0#1, 0#1, 1#1]
/-- and for types 4 to 6: no type 5 counted yet; no type 6 counted yet; both counted. -/
def rowNo5 : Fin 8 → BitVec 1 := ![0#1, 0#1, 0#1, 0#1, 0#1, 1#1, 0#1, 0#1]
def rowNo6 : Fin 8 → BitVec 1 := ![0#1, 0#1, 0#1, 0#1, 0#1, 0#1, 1#1, 0#1]
def rowBoth : Fin 8 → BitVec 1 := ![0#1, 0#1, 0#1, 1#1, 1#1, 1#1, 1#1, 1#1]

/-- Bit `ch` of a position of type `g` that reads the counts `n5` and `n6` (comparisons of `g` signed). -/
def maskBit (g n5 n6 : BitVec 32) (ch : Fin 8) : BitVec 1 :=
  if g = 0#32 then row0 ch
  else if g = 1#32 then row1 ch
  else if g = 2#32 then row2 ch
  else if g = 3#32 then row3 ch
  else if (4#32).sle g = true ∧ g.sle 6#32 = true then
    (if n5 = 0#32 then rowNo5 ch else if n6 = 0#32 then rowNo6 ch else rowBoth ch)
  else if g = 7#32 then row7 ch
  else 0#1

/-- The bits of every position as 32-bit words 0 / 1, bit axis in the middle, from the three arrays of words. -/
def words (g n5 n6 : IVec SBL 32) : IVec SMid 32 := fun i =>
  (maskBit (g (ix2 (i 0) (i 2))) (n5 (ix2 (i 0) (i 2))) (n6 (ix2 (i 0) (i 2))) (i 1)).setWidth 32

/-- THE RESULT: bit `ch` of position `(b, l)`. -/
def G (x : IVec SIn 32) : IVec SOut 1 := fun i =>
  maskBit (tok x (ix2 (i 0) (i 1))) (ahead 5#32 x (ix2 (i 0) (i 1))) (ahead 6#32 x (ix2 (i 0) (i 1))) (i 2)

/-- A 0 / 1 word is non-zero exactly where its bit is set. -/
theorem ne_zero_setWidth (b : BitVec 1) : IntOp.cmpi .ne (b.setWidth 32) 0#32 = b := by
  rcases BitVec.eq_zero_or_eq_one b with h | h <;> subst h <;> decide

end Cert.MaskSpec

end
-- ==== Proof.KerPay.lean ====
/-
  What the kernel body leaves in its output block, read at one element: word `(p, ch, q)` is bit `ch` of the mask of
  the three input blocks' words at `(p, q)`, as a word 0 / 1.
-/
import proofs.«405645_j1279900254761_1_alg».proof.Proof.Gen.KernelIdeal.Frame
import proofs.«405645_j1279900254761_1_alg».proof.Proof.Spec
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

variable {F : FTy → Type} [FloatOps F]

/-! ## Words: a select on a test is the `if` on what the test decides -/

/-- A select on an equality test of two words. -/
theorem sel_eq {α : Type} (x y : BitVec 32) (a b : α) :
    Scalar.select (IntOp.cmpi .eq x y) a b = if x = y then a else b := by
  show (if BitVec.ofBool (x == y) = 1 then a else b) = _
  by_cases h : x = y
  · have hb : (x == y) = true := by simp [h]
    rw [hb, if_pos h]; rfl
  · have hb : (x == y) = false := by simp [h]
    rw [hb, if_neg h]; rfl

/-- A select on the signed range test `4 ≤ g ≤ 6`. -/
theorem sel_range {α : Type} (g : BitVec 32) (a b : α) :
    Scalar.select (IntOp.andi (IntOp.cmpi .sge g 4#32) (IntOp.cmpi .sle g 6#32)) a b
      = if (4#32).sle g = true ∧ g.sle 6#32 = true then a else b := by
  show (if BitVec.ofBool ((4#32).sle g) &&& BitVec.ofBool (g.sle 6#32) = 1 then a else b) = _
  cases (4#32).sle g <;> cases g.sle 6#32 <;> simp

/-- The nest of selects every bit-plane is, with its nine constants: the nest of tests of the mask's definition. -/
theorem sel_nest {α : Type} (g n5 n6 : BitVec 32) (a0 a1 a2 a3 b5 b6 bb a7 az : α) :
    Scalar.select (IntOp.cmpi .eq g 0#32) a0
      (Scalar.select (IntOp.cmpi .eq g 1#32) a1
        (Scalar.select (IntOp.cmpi .eq g 2#32) a2
          (Scalar.select (IntOp.cmpi .eq g 3#32) a3
            (Scalar.select (IntOp.andi (IntOp.cmpi .sge g 4#32) (IntOp.cmpi .sle g 6#32))
              (Scalar.select (IntOp.cmpi .eq n5 0#32) b5 (Scalar.select (IntOp.cmpi .eq n6 0#32) b6 bb))
              (Scalar.select (IntOp.cmpi .eq g 7#32) a7 az)))))
      = if g = 0#32 then a0 else if g = 1#32 then a1 else if g = 2#32 then a2 else if g = 3#32 then a3
        else if (4#32).sle g = true ∧ g.sle 6#32 = true then (if n5 = 0#32 then b5 else if n6 = 0#32 then b6 else bb)
        else if g = 7#32 then a7 else az := by
  simp only [sel_eq, sel_range]

/-- Bit `ch` of the mask as a word, from the nine words the bit-plane's nest selects among. -/
theorem maskBit_word (g n5 n6 : BitVec 32) (ch : Fin 8) (a0 a1 a2 a3 b5 b6 bb a7 az : BitVec 32)
    (h0 : (Cert.MaskSpec.row0 ch).setWidth 32 = a0) (h1 : (Cert.MaskSpec.row1 ch).setWidth 32 = a1)
    (h2 : (Cert.MaskSpec.row2 ch).setWidth 32 = a2) (h3 : (Cert.MaskSpec.row3 ch).setWidth 32 = a3)
    (h5 : (Cert.MaskSpec.rowNo5 ch).setWidth 32 = b5) (h6 : (Cert.MaskSpec.rowNo6 ch).setWidth 32 = b6)
    (hb : (Cert.MaskSpec.rowBoth ch).setWidth 32 = bb) (h7 : (Cert.MaskSpec.row7 ch).setWidth 32 = a7)
    (hz : az = 0#32) :
    (if g = 0#32 then a0 else if g = 1#32 then a1 else if g = 2#32 then a2 else if g = 3#32 then a3
      else if (4#32).sle g = true ∧ g.sle 6#32 = true then (if n5 = 0#32 then b5 else if n6 = 0#32 then b6 else bb)
      else if g = 7#32 then a7 else az)
      = (Cert.MaskSpec.maskBit g n5 n6 ch).setWidth 32 := by
  subst h0 h1 h2 h3 h5 h6 hb h7 hz
  unfold Cert.MaskSpec.maskBit
  split_ifs <;> rfl

/-! ## The tests of a position, read at an index -/

theorem pay3_apply (x : Vec F S128x2048 .i32) (i : S128x2048.Idx) : k0_pay3 x i = IntOp.cmpi .eq (x i) 0#32 := by
  unfold k0_pay3 k0_pay2; rw [shapeCast_self]; rfl
theorem pay4_apply (x : Vec F S128x2048 .i32) (i : S128x2048.Idx) : k0_pay4 x i = IntOp.cmpi .eq (x i) 1#32 := by
  unfold k0_pay4 k0_pay2; rw [shapeCast_self]; rfl
theorem pay5_apply (x : Vec F S128x2048 .i32) (i : S128x2048.Idx) : k0_pay5 x i = IntOp.cmpi .eq (x i) 2#32 := by
  unfold k0_pay5 k0_pay2; rw [shapeCast_self]; rfl
theorem pay6_apply (x : Vec F S128x2048 .i32) (i : S128x2048.Idx) : k0_pay6 x i = IntOp.cmpi .eq (x i) 3#32 := by
  unfold k0_pay6 k0_pay2; rw [shapeCast_self]; rfl
theorem pay7_apply (x : Vec F S128x2048 .i32) (i : S128x2048.Idx) : k0_pay7 x i = IntOp.cmpi .eq (x i) 7#32 := by
  unfold k0_pay7 k0_pay2; rw [shapeCast_self]; rfl
theorem pay8_apply (x : Vec F S128x2048 .i32) (i : S128x2048.Idx) :
    k0_pay8 x i = IntOp.andi (IntOp.cmpi .sge (x i) 4#32) (IntOp.cmpi .sle (x i) 6#32) := by
  unfold k0_pay8 k0_pay2; rw [shapeCast_self]; rfl
theorem pay9_apply (x : Vec F S128x2048 .i32) (i : S128x2048.Idx) : k0_pay9 x i = IntOp.cmpi .eq (x i) 0#32 := by
  unfold k0_pay9; rw [shapeCast_self]; rfl
theorem pay10_apply (x : Vec F S128x2048 .i32) (i : S128x2048.Idx) : k0_pay10 x i = IntOp.cmpi .eq (x i) 0#32 := by
  unfold k0_pay10; rw [shapeCast_self]; rfl

/-! ## The bit-planes -/

/-- A `[128, 2048]` array cast to `[128, 1, 2048]` reads, at `(p, u, q)`, the operand at `(p, q)`. -/
theorem cast_plane_apply {α : Type} (v : S128x2048.Idx → α) (h : S128x2048.ShapeCasts S128x1x2048)
    (p : Fin 128) (u : Fin 1) (q : Fin 2048) : shapeCast S128x1x2048 v h (ix3 p u q) = v (ix2 p q) :=
  shapeCast_apply v h _ _ (by
    have hu : u.val = 0 := by omega
    rw [Shape.rowMajor_val_three, Shape.rowMajor_val_two]
    show p.val * 2048 + q.val = (p.val * 1 + u.val) * 2048 + q.val
    rw [hu]; omega)

/-- Bit-plane 0 of what the body stores, at `(p, u, q)`: bit 0 of the mask at `(p, q)`. -/
theorem plane0_apply (x0 x1 x2 : Vec F S128x2048 .i32) (p : Fin 128) (u : Fin 1) (q : Fin 2048) :
    k0_pay13 (k0_pay3 x0) (k0_pay4 x0) (k0_pay5 x0) (k0_pay11 x0 x1 x2) k0_pay12 (ix3 p u q)
      = (Cert.MaskSpec.maskBit (x0 (ix2 p q)) (x1 (ix2 p q)) (x2 (ix2 p q)) 0).setWidth 32 := by
  unfold k0_pay13
  refine (cast_plane_apply _ _ p u q).trans ?_
  simp only [k0_pay11, k0_pay12, select_apply, broadcast_apply, pay3_apply, pay4_apply, pay5_apply, pay6_apply, pay7_apply, pay8_apply, pay9_apply, pay10_apply]
  rw [sel_nest]
  exact maskBit_word _ _ _ 0 _ _ _ _ _ _ _ _ _ rfl rfl rfl rfl rfl rfl rfl rfl rfl

/-- Bit-plane 1 of what the body stores, at `(p, u, q)`: bit 1 of the mask at `(p, q)`. -/
theorem plane1_apply (x0 x1 x2 : Vec F S128x2048 .i32) (p : Fin 128) (u : Fin 1) (q : Fin 2048) :
    k0_pay14 (k0_pay3 x0) (k0_pay4 x0) (k0_pay5 x0) (k0_pay6 x0) (k0_pay7 x0) (k0_pay8 x0) (k0_pay9 x1) (k0_pay10 x2) (ix3 p u q)
      = (Cert.MaskSpec.maskBit (x0 (ix2 p q)) (x1 (ix2 p q)) (x2 (ix2 p q)) 1).setWidth 32 := by
  unfold k0_pay14
  refine (cast_plane_apply _ _ p u q).trans ?_
  simp only [select_apply, broadcast_apply, pay3_apply, pay4_apply, pay5_apply, pay6_apply, pay7_apply, pay8_apply, pay9_apply, pay10_apply]
  rw [sel_nest]
  exact maskBit_word _ _ _ 1 _ _ _ _ _ _ _ _ _ rfl rfl rfl rfl rfl rfl rfl rfl rfl

/-- Bit-plane 2 of what the body stores, at `(p, u, q)`: bit 2 of the mask at `(p, q)`. -/
theorem plane2_apply (x0 x1 x2 : Vec F S128x2048 .i32) (p : Fin 128) (u : Fin 1) (q : Fin 2048) :
    k0_pay17 (k0_pay3 x0) (k0_pay4 x0) (k0_pay5 x0) (k0_pay6 x0) (k0_pay8 x0) (k0_pay15 (k0_pay9 x1) (k0_pay10 x2)) (k0_pay16 (k0_pay7 x0)) (ix3 p u q)
      = (Cert.MaskSpec.maskBit (x0 (ix2 p q)) (x1 (ix2 p q)) (x2 (ix2 p q)) 2).setWidth 32 := by
  unfold k0_pay17
  refine (cast_plane_apply _ _ p u q).trans ?_
  simp only [k0_pay15, k0_pay16, select_apply, broadcast_apply, pay3_apply, pay4_apply, pay5_apply, pay6_apply, pay7_apply, pay8_apply, pay9_apply, pay10_apply]
  rw [sel_nest]
  exact maskBit_word _ _ _ 2 _ _ _ _ _ _ _ _ _ rfl rfl rfl rfl rfl rfl rfl rfl rfl

/-- Bit-plane 3 of what the body stores, at `(p, u, q)`: bit 3 of the mask at `(p, q)`. -/
theorem plane3_apply (x0 x1 x2 : Vec F S128x2048 .i32) (p : Fin 128) (u : Fin 1) (q : Fin 2048) :
    k0_pay18 (k0_pay3 x0) (k0_pay4 x0) (k0_pay5 x0) (k0_pay6 x0) (k0_pay7 x0) (k0_pay8 x0) (k0_pay9 x1) (k0_pay10 x2) (ix3 p u q)
      = (Cert.MaskSpec.maskBit (x0 (ix2 p q)) (x1 (ix2 p q)) (x2 (ix2 p q)) 3).setWidth 32 := by
  unfold k0_pay18
  refine (cast_plane_apply _ _ p u q).trans ?_
  simp only [select_apply, broadcast_apply, pay3_apply, pay4_apply, pay5_apply, pay6_apply, pay7_apply, pay8_apply, pay9_apply, pay10_apply]
  rw [sel_nest]
  exact maskBit_word _ _ _ 3 _ _ _ _ _ _ _ _ _ rfl rfl rfl rfl rfl rfl rfl rfl rfl

/-- Bit-plane 4 of what the body stores, at `(p, u, q)`: bit 4 of the mask at `(p, q)`. -/
theorem plane4_apply (x0 x1 x2 : Vec F S128x2048 .i32) (p : Fin 128) (u : Fin 1) (q : Fin 2048) :
    k0_pay21 (k0_pay3 x0) (k0_pay4 x0) (k0_pay5 x0) (k0_pay6 x0) (k0_pay7 x0) (k0_pay8 x0) (k0_pay9 x1) (k0_pay19 (k0_pay10 x2)) k0_pay20 (ix3 p u q)
      = (Cert.MaskSpec.maskBit (x0 (ix2 p q)) (x1 (ix2 p q)) (x2 (ix2 p q)) 4).setWidth 32 := by
  unfold k0_pay21
  refine (cast_plane_apply _ _ p u q).trans ?_
  simp only [k0_pay19, k0_pay20, select_apply, broadcast_apply, pay3_apply, pay4_apply, pay5_apply, pay6_apply, pay7_apply, pay8_apply, pay9_apply, pay10_apply]
  rw [sel_nest]
  exact maskBit_word _ _ _ 4 _ _ _ _ _ _ _ _ _ rfl rfl rfl rfl rfl rfl rfl rfl rfl

/-- Bit-plane 5 of what the body stores, at `(p, u, q)`: bit 5 of the mask at `(p, q)`. -/
theorem plane5_apply (x0 x1 x2 : Vec F S128x2048 .i32) (p : Fin 128) (u : Fin 1) (q : Fin 2048) :
    k0_pay22 (k0_pay3 x0) (k0_pay4 x0) (k0_pay5 x0) (k0_pay6 x0) (k0_pay7 x0) (k0_pay8 x0) (k0_pay9 x1) (k0_pay10 x2) (ix3 p u q)
      = (Cert.MaskSpec.maskBit (x0 (ix2 p q)) (x1 (ix2 p q)) (x2 (ix2 p q)) 5).setWidth 32 := by
  unfold k0_pay22
  refine (cast_plane_apply _ _ p u q).trans ?_
  simp only [select_apply, broadcast_apply, pay3_apply, pay4_apply, pay5_apply, pay6_apply, pay7_apply, pay8_apply, pay9_apply, pay10_apply]
  rw [sel_nest]
  exact maskBit_word _ _ _ 5 _ _ _ _ _ _ _ _ _ rfl rfl rfl rfl rfl rfl rfl rfl rfl

/-- Bit-plane 6 of what the body stores, at `(p, u, q)`: bit 6 of the mask at `(p, q)`. -/
theorem plane6_apply (x0 x1 x2 : Vec F S128x2048 .i32) (p : Fin 128) (u : Fin 1) (q : Fin 2048) :
    k0_pay23 (k0_pay3 x0) (k0_pay4 x0) (k0_pay5 x0) (k0_pay6 x0) (k0_pay7 x0) (k0_pay8 x0) (k0_pay9 x1) (k0_pay10 x2) 1#32 (ix3 p u q)
      = (Cert.MaskSpec.maskBit (x0 (ix2 p q)) (x1 (ix2 p q)) (x2 (ix2 p q)) 6).setWidth 32 := by
  unfold k0_pay23
  refine (cast_plane_apply _ _ p u q).trans ?_
  simp only [select_apply, broadcast_apply, pay3_apply, pay4_apply, pay5_apply, pay6_apply, pay7_apply, pay8_apply, pay9_apply, pay10_apply]
  rw [sel_nest]
  exact maskBit_word _ _ _ 6 _ _ _ _ _ _ _ _ _ rfl rfl rfl rfl rfl rfl rfl rfl rfl

/-- Bit-plane 7 of what the body stores, at `(p, u, q)`: bit 7 of the mask at `(p, q)`. -/
theorem plane7_apply (x0 x1 x2 : Vec F S128x2048 .i32) (p : Fin 128) (u : Fin 1) (q : Fin 2048) :
    k0_pay1 (k0_pay24 (k0_pay3 x0) (k0_pay4 x0) (k0_pay5 x0) (k0_pay6 x0) (k0_pay7 x0) (k0_pay8 x0) (k0_pay9 x1) (k0_pay10 x2)) (ix3 p u q)
      = (Cert.MaskSpec.maskBit (x0 (ix2 p q)) (x1 (ix2 p q)) (x2 (ix2 p q)) 7).setWidth 32 := by
  unfold k0_pay1
  refine (cast_plane_apply _ _ p u q).trans ?_
  simp only [k0_pay24, select_apply, broadcast_apply, pay3_apply, pay4_apply, pay5_apply, pay6_apply, pay7_apply, pay8_apply, pay9_apply, pay10_apply]
  rw [sel_nest]
  exact maskBit_word _ _ _ 7 _ _ _ _ _ _ _ _ _ rfl rfl rfl rfl rfl rfl rfl rfl rfl

/-! ## The block -/

/-- The block the body leaves, as one function of the block's index. -/
def blockWords (x0 x1 x2 : Vec F S128x2048 .i32) : Vec F S128x8x2048 .i32 := fun y =>
  (Cert.MaskSpec.maskBit (x0 (ix2 (y 0) (y 2))) (x1 (ix2 (y 0) (y 2))) (x2 (ix2 (y 0) (y 2))) (y 1)).setWidth 32

/-- Where bit-plane `k`'s rectangle puts its index `(a, u, b)`: at `(a, k, b)`. -/
theorem emb_plane (k : Nat) (hk : k < 8)
    (inb : ∀ a, (![0, k, 0] : Fin 3 → Nat) a + S128x1x2048.size a ≤ S128x8x2048.size a)
    (a : Fin 128) (u : Fin 1) (b : Fin 2048) :
    (Rect.unit (s := S128x8x2048) ![0, k, 0] S128x1x2048.size inb).emb (ix3 a u b) = ix3 a (⟨k, hk⟩ : Fin 8) b := by
  funext d
  apply Fin.ext
  match d with
  | ⟨0, _⟩ => show 0 + 1 * a.val = a.val; omega
  | ⟨1, _⟩ => show k + 1 * u.val = k; omega
  | ⟨2, _⟩ => show 0 + 1 * b.val = b.val; omega

/-- A payload that is bit `k` of the mask at every `(p, u, q)` is, on bit-plane `k`'s rectangle, the block's function. -/
theorem piece_eq (k : Nat) (hk : k < 8)
    (inb : ∀ a, (![0, k, 0] : Fin 3 → Nat) a + S128x1x2048.size a ≤ S128x8x2048.size a)
    (x0 x1 x2 : Vec F S128x2048 .i32) (w : Vec F S128x1x2048 .i32)
    (hw : ∀ (p : Fin 128) (u : Fin 1) (q : Fin 2048), w (ix3 p u q)
      = (Cert.MaskSpec.maskBit (x0 (ix2 p q)) (x1 (ix2 p q)) (x2 (ix2 p q)) ⟨k, hk⟩).setWidth 32)
    (x : (Rect.unit (s := S128x8x2048) ![0, k, 0] S128x1x2048.size inb).shape.Idx) :
    w x = blockWords x0 x1 x2 ((Rect.unit (s := S128x8x2048) ![0, k, 0] S128x1x2048.size inb).emb x) := by
  obtain ⟨a, u, b, rfl⟩ : ∃ (a : Fin 128) (u : Fin 1) (b : Fin 2048), x = ix3 a u b := ⟨x 0, x 1, x 2, eq_ix3 x⟩
  rw [emb_plane k hk inb a u b]
  exact hw a u b

/-- The output block after the body, at `(p, ch, q)`. -/
theorem out_apply (x0 x1 x2 : Vec F S128x2048 .i32) (p : Fin 128) (ch : Fin 8) (q : Fin 2048) :
    out0_3 x0 x1 x2 (ix3 p ch q)
      = (Cert.MaskSpec.maskBit (x0 (ix2 p q)) (x1 (ix2 p q)) (x2 (ix2 p q)) ch).setWidth 32 := by
  have hz : (![0, 0] : Fin 2 → Nat) = fun _ => 0 := by
    funext a; match a with | ⟨0, _⟩ => rfl | ⟨1, _⟩ => rfl
  unfold out0_3
  simp only [View.ld_unit_zero (S := S128x2048) hz]
  refine (View.canon_apply_of_pieces (blockWords x0 x1 x2) _ ?_ (ix3 p ch q) (cover0_3 _ _ _ _ _ _ _ _ _)).trans rfl
  intro pc hpc x
  rcases List.mem_cons.mp hpc with rfl | hpc
  · exact piece_eq 7 (by decide) inb_S128x8x2048_S128x1x2048_0_7_0 x0 x1 x2 _ (plane7_apply x0 x1 x2) x
  rcases List.mem_cons.mp hpc with rfl | hpc
  · exact piece_eq 6 (by decide) inb_S128x8x2048_S128x1x2048_0_6_0 x0 x1 x2 _ (plane6_apply x0 x1 x2) x
  rcases List.mem_cons.mp hpc with rfl | hpc
  · exact piece_eq 5 (by decide) inb_S128x8x2048_S128x1x2048_0_5_0 x0 x1 x2 _ (plane5_apply x0 x1 x2) x
  rcases List.mem_cons.mp hpc with rfl | hpc
  · exact piece_eq 4 (by decide) inb_S128x8x2048_S128x1x2048_0_4_0 x0 x1 x2 _ (plane4_apply x0 x1 x2) x
  rcases List.mem_cons.mp hpc with rfl | hpc
  · exact piece_eq 3 (by decide) inb_S128x8x2048_S128x1x2048_0_3_0 x0 x1 x2 _ (plane3_apply x0 x1 x2) x
  rcases List.mem_cons.mp hpc with rfl | hpc
  · exact piece_eq 2 (by decide) inb_S128x8x2048_S128x1x2048_0_2_0 x0 x1 x2 _ (plane2_apply x0 x1 x2) x
  rcases List.mem_cons.mp hpc with rfl | hpc
  · exact piece_eq 1 (by decide) inb_S128x8x2048_S128x1x2048_0_1_0 x0 x1 x2 _ (plane1_apply x0 x1 x2) x
  rcases List.mem_cons.mp hpc with rfl | hpc
  · exact piece_eq 0 (by decide) inb_S128x8x2048_S128x1x2048_0_0_0 x0 x1 x2 _ (plane0_apply x0 x1 x2) x
  nomatch hpc

end Cert.KernelIdeal.Hand

end
-- ==== Proof.KerBlocks.lean ====
/-
  From blocks to the array: the kernel's output array after the region is `words` of the three arrays the region reads.
-/
import proofs.«405645_j1279900254761_1_alg».proof.Proof.KerPay

noncomputable section

namespace Cert.KernelIdeal.Hand

open Idealize.ShloMosaic Idealize.ShloMosaic.ValueIdx Idealize.ShloMosaic.TcCoe Cert.KernelIdeal Cert.KernelIdeal.Gen
open Idealize.ShloMosaic.Pipeline (Dat)

variable {F : FTy → Type} [FloatOps F]

/-! ## One point, over plain arrays -/

/-- Row `p` of row block `t` is row `128 t + p` of the array. -/
def rowOf (t : Nat) (ht : t < 8) (p : Fin 128) : Fin 1024 := ⟨128 * t + p.val, by omega⟩

/-- What the body leaves at point `t` when its three input blocks are row blocks `t` of three arrays: row block `t` of
    the arrays' `words`. -/
theorem point_words (g n5 n6 : IVec S1024x2048 32) (b0 b1 b2 : Vec F S128x2048 .i32) (t : Nat) (ht : t < 8)
    (h0 : ∀ (p : Fin 128) (q : Fin 2048), b0 (ix2 p q) = g (ix2 (rowOf t ht p) q))
    (h1 : ∀ (p : Fin 128) (q : Fin 2048), b1 (ix2 p q) = n5 (ix2 (rowOf t ht p) q))
    (h2 : ∀ (p : Fin 128) (q : Fin 2048), b2 (ix2 p q) = n6 (ix2 (rowOf t ht p) q))
    (y : S128x8x2048.Idx) :
    out0_3 b0 b1 b2 y = Cert.MaskSpec.words g n5 n6 (ix3 (rowOf t ht (y 0)) (y 1) (y 2)) := by
  obtain ⟨p, ch, q, rfl⟩ : ∃ (p : Fin 128) (ch : Fin 8) (q : Fin 2048), y = ix3 p ch q := ⟨y 0, y 1, y 2, eq_ix3 y⟩
  show out0_3 b0 b1 b2 (ix3 p ch q) = Cert.MaskSpec.words g n5 n6 (ix3 (rowOf t ht p) ch q)
  rw [out_apply, h0, h1, h2]
  rfl

/-! ## The grid's points -/

variable (m : (ℓ : Loc nD τ sig) → Buf (Elt F) ℓ)

/-- The three arrays the region reads, as it finds them, at their literal types. -/
abbrev tyArr (c : Dev nD) : IVec S1024x2048 32 := V m c main_v1
abbrev n5Arr (c : Dev nD) : IVec S1024x2048 32 := V m c main_v12
abbrev n6Arr (c : Dev nD) : IVec S1024x2048 32 := V m c main_v15

/-- The windows' block indices, decided over the grid: the row block is the point, every other axis is whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The grid has eight points. -/
theorem lt_N (t : Fin cfg0.N) : t.val < 8 := Nat.lt_of_lt_of_eq t.isLt N_0

/-- Input window 0's block at point `t`, at `(p, q)`: its array at `(128 t + p, q)`. -/
theorem iblk0_apply (c : Dev nD) (t : Fin cfg0.N) (p : Fin 128) (q : Fin 2048) :
    (iblk m c 0 t : Vec F S128x2048 .i32) (ix2 p q) = tyArr m c (ix2 (rowOf t.val (lt_N t) p) q) := by
  obtain ⟨e0, e1, -⟩ := idx_facts t
  show V m c main_v1 (((cfg0.win 0).blk t).view.emb (ix2 p q : S128x2048.Idx)) = V m c main_v1 (ix2 (rowOf t.val (lt_N t) p) q)
  refine congrArg (tyArr m c) ?_
  funext a
  apply Fin.ext
  match a with
  | ⟨0, _⟩ => show win0_0.index t (0 : Fin 2) * 128 + 1 * p.val = 128 * t.val + p.val; rw [e0]; omega
  | ⟨1, _⟩ => show win0_0.index t (1 : Fin 2) * 2048 + 1 * q.val = q.val; rw [e1]; omega

/-- Input window 1's block at point `t`, at `(p, q)`: its array at `(128 t + p, q)`. -/
theorem iblk1_apply (c : Dev nD) (t : Fin cfg0.N) (p : Fin 128) (q : Fin 2048) :
    (iblk m c 1 t : Vec F S128x2048 .i32) (ix2 p q) = n5Arr m c (ix2 (rowOf t.val (lt_N t) p) q) := by
  obtain ⟨-, -, e0, e1, -⟩ := idx_facts t
  show V m c main_v12 (((cfg0.win 1).blk t).view.emb (ix2 p q : S128x2048.Idx)) = V m c main_v12 (ix2 (rowOf t.val (lt_N t) p) q)
  refine congrArg (n5Arr m c) ?_
  funext a
  apply Fin.ext
  match a with
  | ⟨0, _⟩ => show win0_1.index t (0 : Fin 2) * 128 + 1 * p.val = 128 * t.val + p.val; rw [e0]; omega
  | ⟨1, _⟩ => show win0_1.index t (1 : Fin 2) * 2048 + 1 * q.val = q.val; rw [e1]; omega

/-- Input window 2's block at point `t`, at `(p, q)`: its array at `(128 t + p, q)`. -/
theorem iblk2_apply (c : Dev nD) (t : Fin cfg0.N) (p : Fin 128) (q : Fin 2048) :
    (iblk m c 2 t : Vec F S128x2048 .i32) (ix2 p q) = n6Arr m c (ix2 (rowOf t.val (lt_N t) p) q) := by
  obtain ⟨-, -, -, -, e0, e1, -⟩ := idx_facts t
  show V m c main_v15 (((cfg0.win 2).blk t).view.emb (ix2 p q : S128x2048.Idx)) = V m c main_v15 (ix2 (rowOf t.val (lt_N t) p) q)
  refine congrArg (n6Arr m c) ?_
  funext a
  apply Fin.ext
  match a with
  | ⟨0, _⟩ => show win0_2.index t (0 : Fin 2) * 128 + 1 * p.val = 128 * t.val + p.val; rw [e0]; omega
  | ⟨1, _⟩ => show win0_2.index t (1 : Fin 2) * 2048 + 1 * q.val = q.val; rw [e1]; omega

/-- What point `t` writes back is block `t` of `words` of the three arrays. -/
theorem flushed_eq (c : Dev nD) (t : Fin cfg0.N) :
    (dats m 0 c).flushed 3 t
      = ((cfg0.win 3).blk t).view.read (Elt F) (Cert.MaskSpec.words (tyArr m c) (n5Arr m c) (n6Arr m c)) := by
  show (cfg0.win 3).cut (grid0.coords t) ((dats m 0 c).after 3 t) = _
  rw [after0_3]
  obtain ⟨-, -, -, -, -, -, e0, e1, e2⟩ := idx_facts t
  funext y
  show out0_3 (iblk m c 0 t) (iblk m c 1 t) (iblk m c 2 t) y
    = Cert.MaskSpec.words (tyArr m c) (n5Arr m c) (n6Arr m c) (((cfg0.win 3).blk t).view.emb y)
  refine (point_words (tyArr m c) (n5Arr m c) (n6Arr m c) _ _ _ t.val (lt_N t)
    (iblk0_apply m c t) (iblk1_apply m c t) (iblk2_apply m c t) y).trans ?_
  refine congrArg (Cert.MaskSpec.words (tyArr m c) (n5Arr m c) (n6Arr m c)) ?_
  funext a
  apply Fin.ext
  match a with
  | ⟨0, _⟩ => show 128 * t.val + (y 0).val = win0_3.index t (0 : Fin 3) * 128 + 1 * (y 0).val; rw [e0]; omega
  | ⟨1, _⟩ => show (y 1).val = win0_3.index t (1 : Fin 3) * 8 + 1 * (y 1).val; rw [e1]; omega
  | ⟨2, _⟩ => show (y 2).val = win0_3.index t (2 : Fin 3) * 2048 + 1 * (y 2).val; rw [e2]; omega

/-- An index of the output array is in point `t`'s block iff each coordinate is in the block's range on its axis. -/
theorem mem_blk (t : Fin cfg0.N) (i : S1024x8x2048.Idx) :
    i ∈ ((cfg0.win 3).blk t).view.set ↔ ∀ a : Fin 3, win0_3.index t a * S128x8x2048.size a ≤ (i a).val
      ∧ (i a).val < win0_3.index t a * S128x8x2048.size a + S128x8x2048.size a := by
  show i ∈ ((View.whole main_v16).slice (win0_3.rect t)).set ↔ _
  rw [View.set_slice_whole, Rect.mem_set_unit]
  exact Iff.rfl

/-- Every index of the output array is in some point's block: row `r` in point `r / 128`'s. -/
theorem cover (i : S1024x8x2048.Idx) :
    ∃ t : Fin cfg0.N, (cfg0.win 3).flush t = true ∧ i ∈ ((cfg0.win 3).blk t).view.set := by
  have h0 : (i 0).val < 1024 := (i 0).isLt
  have h1 : (i 1).val < 8 := (i 1).isLt
  have h2 : (i 2).val < 2048 := (i 2).isLt
  obtain ⟨t, ht⟩ : ∃ t : Fin cfg0.N, t.val = (i 0).val / 128 :=
    ⟨⟨(i 0).val / 128, by rw [show cfg0.N = 8 from N_0]; omega⟩, rfl⟩
  obtain ⟨-, -, -, -, -, -, e0, e1, e2⟩ := idx_facts t
  refine ⟨t, flush0_3 t, ?_⟩
  rw [mem_blk]
  intro a
  match a with
  | ⟨0, _⟩ =>
    show win0_3.index t (0 : Fin 3) * 128 ≤ (i 0).val ∧ (i 0).val < win0_3.index t (0 : Fin 3) * 128 + 128
    rw [e0]; omega
  | ⟨1, _⟩ =>
    show win0_3.index t (1 : Fin 3) * 8 ≤ (i 1).val ∧ (i 1).val < win0_3.index t (1 : Fin 3) * 8 + 8
    rw [e1]; omega
  | ⟨2, _⟩ =>
    show win0_3.index t (2 : Fin 3) * 2048 ≤ (i 2).val ∧ (i 2).val < win0_3.index t (2 : Fin 3) * 2048 + 2048
    rw [e2]; omega

/-- The output array after the last grid point. -/
theorem arr_final (c : Dev nD) :
    (dats m 0 c).arrAt 3 cfg0.N = Cert.MaskSpec.words (tyArr m c) (n5Arr m c) (n6Arr m c) :=
  (dats m 0 c).arrAt_eq_of_cover 3 (Cert.MaskSpec.words (tyArr m c) (n5Arr m c) (n6Arr m c))
    (fun t _ => flushed_eq m c t) (fun i => cover i)

end Cert.KernelIdeal.Hand

end
-- ==== Proof.KerHost.lean ====
/-
  The host operations before the region: the three arrays the kernel reads are the token types and the two counts read
  one position ahead (a prefix-sum array shifted left by one, its last column repeated).
-/
import proofs.«405645_j1279900254761_1_alg».proof.Proof.Gen.KernelIdeal.Frame
import proofs.«405645_j1279900254761_1_alg».proof.Proof.Spec
import Idealize.ShloMosaic.Lib.Pipeline.Value
import Idealize.ShloMosaic.Lib.StableHlo.Run

noncomputable section

namespace Cert.KernelIdeal.Hand

open Idealize.ShloMosaic Idealize.ShloMosaic.ValueIdx Idealize.ShloMosaic.TcCoe Cert.KernelIdeal Cert.KernelIdeal.Gen

variable {F : FTy → Type} [FloatOps F]
variable (m : (ℓ : Loc nD τ sig) → Buf (Elt F) ℓ)

/-- The argument array as launched, at its literal type. -/
abbrev inArr (c : Dev nD) : IVec S1024x2048x11 32 := m ((c : Thread nD τ).loc main_arg0)

-- the windowed sum is carried whole: no equation below opens it
attribute [local irreducible] Host.reduceWindow

/-- A word array shifted left by one along its rows, the last column repeated: columns 1 … 2047 followed by column 2047. -/
def shiftL (y : IVec S1024x2048 32) : IVec S1024x2048 32 :=
  concatenate S1024x2048 1 [⟨S1024x2047, extractStridedSlice S1024x2047 ![0, 1] y slices_S1024x2048_S1024x2047_0_1⟩,
    ⟨S1024x1, extractStridedSlice S1024x1 ![0, 2047] y slices_S1024x2048_S1024x1_0_2047⟩]
    concatenates_S1024x2047_S1024x1_S1024x2048_d1

/-- Entry `(b, l)` of the shifted array is entry `(b, min (l + 1) 2047)` of the array. -/
theorem shiftL_apply (y : IVec S1024x2048 32) (i : S1024x2048.Idx) :
    shiftL y i = y (ix2 (i 0) (Cert.MaskSpec.nxt (i 1))) := by
  unfold shiftL
  by_cases hl : (i 1).val < 2047
  · refine (concatenate_pair_apply_left (s₁ := S1024x2047) (s₂ := S1024x1) (1 : Fin 2) _ _ _ i rfl (ix2 (i 0) (⟨(i 1).val, hl⟩ : Fin 2047) : S1024x2047.Idx) ?_).trans ?_
    · intro b; match b with
      | ⟨0, _⟩ => rfl
      | ⟨1, _⟩ => rfl
    · show y _ = y _
      congr 1; funext a; match a with
      | ⟨0, _⟩ => exact Fin.ext (by show 0 + (i 0).val = (i 0).val; omega)
      | ⟨1, _⟩ => exact Fin.ext (by show 1 + (i 1).val = min ((i 1).val + 1) 2047; omega)
  · have h1 := (i 1).isLt
    refine (concatenate_pair_apply_right (s₁ := S1024x2047) (s₂ := S1024x1) (1 : Fin 2) _ _ _ i rfl rfl (ix2 (i 0) (0 : Fin 1) : S1024x1.Idx) ?_ ?_).trans ?_
    · intro b hb; match b, hb with
      | ⟨0, _⟩, _ => rfl
      | ⟨1, _⟩, hb => exact absurd rfl hb
    · show 0 + 2047 = (i 1).val
      have : (i 1).val < 2048 := h1
      omega
    · show y _ = y _
      congr 1; funext a; match a with
      | ⟨0, _⟩ => exact Fin.ext (by show 0 + (i 0).val = (i 0).val; omega)
      | ⟨1, _⟩ => exact Fin.ext (by show 2047 + 0 = min ((i 1).val + 1) 2047; have : (i 1).val < 2048 := h1; omega)

theorem V_types (c : Dev nD) : (V m c main_v1 : IVec S1024x2048 32) = Cert.MaskSpec.tok (inArr m c) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

theorem V_shift5 (c : Dev nD) : (V m c main_v12 : IVec S1024x2048 32) = shiftL (Cert.MaskSpec.count 5#32 (inArr m c)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

theorem V_shift6 (c : Dev nD) : (V m c main_v15 : IVec S1024x2048 32) = shiftL (Cert.MaskSpec.count 6#32 (inArr m c)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

theorem V_ahead5 (c : Dev nD) : (V m c main_v12 : IVec S1024x2048 32) = Cert.MaskSpec.ahead 5#32 (inArr m c) := by
  rw [V_shift5]; funext i; rw [shiftL_apply]; rfl

theorem V_ahead6 (c : Dev nD) : (V m c main_v15 : IVec S1024x2048 32) = Cert.MaskSpec.ahead 6#32 (inArr m c) := by
  rw [V_shift6]; funext i; rw [shiftL_apply]; rfl

end Cert.KernelIdeal.Hand

end
-- ==== Proof.KerRun.lean ====
/-
  The kernel program's run with its result named: after the region the host transposes the words' array to put the bit axis
  last and tests each word against zero, so the result is `G` of the argument array.
-/
import proofs.«405645_j1279900254761_1_alg».proof.Proof.KerBlocks
import proofs.«405645_j1279900254761_1_alg».proof.Proof.KerHost

noncomputable section

namespace Cert.KernelIdeal.Hand

open Idealize.ShloMosaic Idealize.ShloMosaic.ValueIdx Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-- The region's output array, as the host lines after it find it: the words of the three arrays the region read. -/
theorem out_words (c : Dev nD) :
    (Pipeline.withArrays (cfgs 0).spec c (V0 m c) (fun w => (dats m 0 c).arrAt w (cfgs 0).N) (Proc.devRef .tc main_v16)
      : IVec S1024x8x2048 32) = Cert.MaskSpec.words (tyArr m c) (n5Arr m c) (n6Arr m c) :=
  (Pipeline.withArrays_arr spec0 launch0.win.arr_inj c _ _ 3).trans (arr_final m c)

/-- What the host lines after the region leave in the result buffer, from the output array the region leaves. -/
theorem tail_result (c : Dev nD) :
    Pipeline.afterTail₀ cfgs (dats m) 0 (V0 m) [hostOps1] c main_v20 = Cert.MaskSpec.G (inArr m c) := by
  unfold Pipeline.afterTail₀
  show StableHlo.after hostOps1 _ (Proc.devRef .tc main_v20) = _
  after_results
  rw [out_words m c]
  funext i
  obtain ⟨b, l, ch, rfl⟩ : ∃ b l ch, i = ix3 b l ch := ⟨i 0, i 1, i 2, eq_ix3 i⟩
  -- the comparison with the broadcast zero, at the index, is the word's test against zero
  show IntOp.cmpi .ne (transpose S1024x2048x8 [0, 2, 1] (Cert.MaskSpec.words (tyArr m c) (n5Arr m c) (n6Arr m c))
    transposes_S1024x8x2048_S1024x2048x8_0_2_1 (ix3 b l ch)) 0#32 = _
  -- the transposed array at (b, l, ch) is the words' array at (b, ch, l)
  rw [transpose_ix3_021_apply]
  show IntOp.cmpi .ne ((Cert.MaskSpec.maskBit (tyArr m c (ix2 b l)) (n5Arr m c (ix2 b l)) (n6Arr m c (ix2 b l)) ch).setWidth 32) 0#32 = _
  rw [Cert.MaskSpec.ne_zero_setWidth]
  -- the three arrays are the token types and the two counts read one position ahead
  show Cert.MaskSpec.maskBit ((V m c main_v1 : IVec S1024x2048 32) (ix2 b l)) ((V m c main_v12 : IVec S1024x2048 32) (ix2 b l))
    ((V m c main_v15 : IVec S1024x2048 32) (ix2 b l)) ch = _
  rw [V_types, V_ahead5, V_ahead6]
  rfl

/-- Every weakly fair execution of the kernel program terminates, its result at `G` of the argument array and the argument
    array unchanged. -/
theorem run : θ_run defs (onTc (τ := τ) (main (F := F))) ⟨m, fun _ => 0, ρ⟩ fun r => ∀ c : Dev nD,
      r.2.mem ((c.tc : Thread nD τ).loc main_v20) = Cert.MaskSpec.G (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v20 (Pipeline.mem_restRefs_of main_v20 (by decide) (by decide))).trans (tail_result m c),
     ((h c).2 main_arg0 (Pipeline.mem_restRefs_of main_arg0 (by decide) (by decide))).trans (W_main_arg0 m (dats m) c)⟩)
    (run_main m ρ)

end Cert.KernelIdeal.Hand

end
-- ==== Proof.RefTerm.lean ====
/-
  The reference's result as ONE pure term of its argument array: its host operations composed in program order.
  First the four literal tables; the token types (feature 0); the type clamped into the table's rows 0 … 8, wrapped
  the way an index from the end would be, and the table's row gathered; the two indicator arrays and their prefix
  sums; the positions read one ahead (an iota plus one, capped at the last position), wrapped likewise, and the
  two count arrays gathered along the row at them; the three selects: by "no type 6 yet", by "no type 5 yet", and by
  "the type is 4 to 6" between the dynamic row and the table's row.
-/
import proofs.«405645_j1279900254761_1_alg».proof.ReferenceIdeal
import proofs.«405645_j1279900254761_1_alg».proof.Proof.Gen.ReferenceIdeal

noncomputable section

namespace Cert.ReferenceIdeal.Hand

open Idealize.ShloMosaic Cert.ReferenceIdeal
open Cert.ReferenceIdeal.Facts₀

/-- The table's row index of every position: the type clamped into 0 … 8 (then wrapped as a from-the-end index would be). -/
def rowIdx (x : IVec S1024x2048x11 32) : IVec S1024x2048x1 32 :=
  let v1 : IVec S1024x2048 32 := shapeCast S1024x2048 (extractStridedSlice S1024x2048x1 ![0, 0, 0] x slices_S1024x2048x11_S1024x2048x1_0_0_0) shapeCasts_S1024x2048x1_S1024x2048
  let k1 : IVec S1024x2048 32 := broadcastInDim S1024x2048 ![] bcast_S_S1024x2048 (constantI S_ 32 0#32)
  let k2 : IVec S1024x2048 32 := maxsi k1 v1
  let k4 : IVec S1024x2048 32 := broadcastInDim S1024x2048 ![] bcast_S_S1024x2048 (constantI S_ 32 8#32)
  let v2 : IVec S1024x2048 32 := minsi k4 k2
  let v3 : IVec S1024x2048 32 := broadcastInDim S1024x2048 ![] bcast_S_S1024x2048 (constantI S_ 32 0#32)
  let v4 : IVec S1024x2048 1 := cmpi .slt v2 v3
  let v5 : IVec S1024x2048 32 := broadcastInDim S1024x2048 ![] bcast_S_S1024x2048 (constantI S_ 32 9#32)
  let v6 : IVec S1024x2048 32 := addi v2 v5
  let v7 : IVec S1024x2048 32 := select v4 v6 v2
  broadcastInDim S1024x2048x1 ![0, 1] bcast_S1024x2048_S1024x2048x1_0_1 v7

/-- The table's row of every position. -/
def tableRow (x : IVec S1024x2048x11 32) : IVec S1024x2048x8 1 :=
  Host.gather gather_S9x8_S1024x2048x1_S1024x2048x8_2_0_n_n_0_2_18 (fun i => lit0 (S9x8.rowMajor i)) (rowIdx x)

/-- The prefix sums of the indicator of "the type is `v`". -/
def cum (v : BitVec 32) (x : IVec S1024x2048x11 32) : IVec S1024x2048 32 :=
  let v1 : IVec S1024x2048 32 := shapeCast S1024x2048 (extractStridedSlice S1024x2048x1 ![0, 0, 0] x slices_S1024x2048x11_S1024x2048x1_0_0_0) shapeCasts_S1024x2048x1_S1024x2048
  let v10 : IVec S1024x2048 32 := broadcastInDim S1024x2048 ![] bcast_S_S1024x2048 (constantI S_ 32 v)
  let v12 : IVec S1024x2048 32 := extui 32 (cmpi .eq v1 v10) natLt_1_32
  Host.reduceWindow IntOp.addi ![1, 2048] ![1, 1] ![0, 2047] ![0, 0] v12 (broadcastInDim S_ ![] bcast_S_S_ (constantI S_ 32 0#32))
    reduceWindows_S1024x2048_S1024x2048_w1s1p0_0_w2048s1p2047_0 h_S_

/-- The positions read one ahead, as the start indices of a gather along the row. -/
def aheadIdx : IVec S2048x1 32 :=
  let v18 : IVec S2048 32 := iotaInDim S2048 32 0
  let v19 : IVec S2048 32 := broadcastInDim S2048 ![] bcast_S_S2048 (constantI S_ 32 1#32)
  let v20 : IVec S2048 32 := addi v18 v19
  let v21 : IVec S2048 32 := broadcastInDim S2048 ![] bcast_S_S2048 (constantI S_ 32 2047#32)
  let v22 : IVec S2048 32 := minsi v20 v21
  let v23 : IVec S2048 32 := broadcastInDim S2048 ![] bcast_S_S2048 (constantI S_ 32 0#32)
  let v24 : IVec S2048 1 := cmpi .slt v22 v23
  let v25 : IVec S2048 32 := broadcastInDim S2048 ![] bcast_S_S2048 (constantI S_ 32 2048#32)
  let v26 : IVec S2048 32 := addi v22 v25
  let v27 : IVec S2048 32 := select v24 v26 v22
  broadcastInDim S2048x1 ![0] bcast_S2048_S2048x1_0 v27

/-- "No type `v` counted yet", as each position reads it, a column per position. -/
def none (v : BitVec 32) (x : IVec S1024x2048x11 32) : IVec S1024x2048x1 1 :=
  let v29 : IVec S1024x2048 32 := Host.gather gather_S1024x2048_S2048x1_S1024x2048_0_1_n_n_1_1_10241 (cum v x) aheadIdx
  let v37 : IVec S1024x2048 32 := broadcastInDim S1024x2048 ![] bcast_S_S1024x2048 (constantI S_ 32 0#32)
  let v38 : IVec S1024x2048 1 := cmpi .eq v29 v37
  broadcastInDim S1024x2048x1 ![0, 1] bcast_S1024x2048_S1024x2048x1_0_1 v38

/-- "The type is 4 to 6", a column per position. -/
def dyn (x : IVec S1024x2048x11 32) : IVec S1024x2048x1 1 :=
  let v1 : IVec S1024x2048 32 := shapeCast S1024x2048 (extractStridedSlice S1024x2048x1 ![0, 0, 0] x slices_S1024x2048x11_S1024x2048x1_0_0_0) shapeCasts_S1024x2048x1_S1024x2048
  let v45 : IVec S1024x2048 32 := broadcastInDim S1024x2048 ![] bcast_S_S1024x2048 (constantI S_ 32 4#32)
  let v46 : IVec S1024x2048 1 := cmpi .sge v1 v45
  let v47 : IVec S1024x2048 32 := broadcastInDim S1024x2048 ![] bcast_S_S1024x2048 (constantI S_ 32 6#32)
  let v48 : IVec S1024x2048 1 := cmpi .sle v1 v47
  let v49 : IVec S1024x2048 1 := andi v46 v48
  broadcastInDim S1024x2048x1 ![0, 1] bcast_S1024x2048_S1024x2048x1_0_1 v49

/-- THE REFERENCE'S RESULT of its argument array. -/
def refTerm (x : IVec S1024x2048x11 32) : IVec S1024x2048x8 1 :=
  let c_0 : IVec S8 1 := fun i => lit1 (S8.rowMajor i)
  let c_1 : IVec S8 1 := fun i => lit2 (S8.rowMajor i)
  let c_2 : IVec S8 1 := fun i => lit3 (S8.rowMajor i)
  let v43 : IVec S1024x2048x8 1 :=
    select (broadcastInDim S1024x2048x8 ![0, 1, 2] bcast_S1024x2048x1_S1024x2048x8_0_1_2 (none 6#32 x))
      (broadcastInDim S1024x2048x8 ![2] bcast_S8_S1024x2048x8_2 c_1) (broadcastInDim S1024x2048x8 ![2] bcast_S8_S1024x2048x8_2 c_2)
  let v44 : IVec S1024x2048x8 1 :=
    select (broadcastInDim S1024x2048x8 ![0, 1, 2] bcast_S1024x2048x1_S1024x2048x8_0_1_2 (none 5#32 x))
      (broadcastInDim S1024x2048x8 ![2] bcast_S8_S1024x2048x8_2 c_0) v43
  select (broadcastInDim S1024x2048x8 ![0, 1, 2] bcast_S1024x2048x1_S1024x2048x8_0_1_2 (dyn x)) v44 (tableRow x)

end Cert.ReferenceIdeal.Hand

end
-- ==== Proof.RefRun.lean ====
/-
  The reference's run: its @main is a straight line of host operations (the outlined functions inlined at their calls), so
  every execution ends with each buffer at the operations' composed term of the argument, and the argument unchanged.
-/
import proofs.«405645_j1279900254761_1_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations in program order, each call replaced by its callee's operations over that call's buffers:
    the four literal tables; the slice and the reshape to the token types; the clamp (six operations) and the
    from-the-end wrap of the table's row index, and the table's gather; the two indicator arrays and their windowed
    sums (three operations each); the index one ahead, computed twice, and the two gathers along the row; the two
    comparisons with zero; the three selects with their broadcasts. -/
abbrev ops : List (HloOp τ sig (Elt F)) :=
  [
    StableHlo.nullary main_c (fun i => lit0 (S9x8.rowMajor i)),
    StableHlo.nullary main_c_0 (fun i => lit1 (S8.rowMajor i)),
    StableHlo.nullary main_c_1 (fun i => lit2 (S8.rowMajor i)),
    StableHlo.nullary main_c_2 (fun i => lit3 (S8.rowMajor i)),
    StableHlo.unary main_arg0 main_v0 ((extractStridedSlice S1024x2048x1 ![0, 0, 0] · slices_S1024x2048x11_S1024x2048x1_0_0_0) : (⟨S1024x2048x11, .i32⟩ : BufTy).Contents (Elt F) → (⟨S1024x2048x1, .i32⟩ : BufTy).Contents (Elt F)),
    StableHlo.reshape main_v0 main_v1 rfl shapeCasts_S1024x2048x1_S1024x2048,
    StableHlo.nullary main_c_3 (constantI S_ 32 0#32),
    StableHlo.nullary main_c_4 (constantI S_ 32 8#32),
    StableHlo.TRef.unary (.of main_c_3 : StableHlo.TRef sig ⟨S_, .i32⟩) main_call0.v0 id,
    StableHlo.TRef.unary main_call0.v0 main_call0.v1 (broadcastInDim S1024x2048 ![] bcast_S_S1024x2048),
    StableHlo.TRef.binary main_call0.v1 (.of main_v1 : StableHlo.TRef sig ⟨S1024x2048, .i32⟩) main_call0.v2 maxsi,
    StableHlo.TRef.unary (.of main_c_4 : StableHlo.TRef sig ⟨S_, .i32⟩) main_call0.v3 id,
    StableHlo.TRef.unary main_call0.v3 main_call0.v4 (broadcastInDim S1024x2048 ![] bcast_S_S1024x2048),
    StableHlo.TRef.binary main_call0.v4 main_call0.v2 main_call0.v5 minsi,
    StableHlo.nullary main_c_5 (constantI S_ 32 0#32),
    StableHlo.unary main_c_5 main_v3 (broadcastInDim S1024x2048 ![] bcast_S_S1024x2048 : (⟨S_, .i32⟩ : BufTy).Contents (Elt F) → (⟨S1024x2048, .i32⟩ : BufTy).Contents (Elt F)),
    StableHlo.binary main_v2 main_v3 main_v4 (cmpi .slt : (⟨S1024x2048, .i32⟩ : BufTy).Contents (Elt F) → (⟨S1024x2048, .i32⟩ : BufTy).Contents (Elt F) → (⟨S1024x2048, .i1⟩ : BufTy).Contents (Elt F)),
    StableHlo.nullary main_c_6 (constantI S_ 32 9#32),
    StableHlo.unary main_c_6 main_v5 (broadcastInDim S1024x2048 ![] bcast_S_S1024x2048 : (⟨S_, .i32⟩ : BufTy).Contents (Elt F) → (⟨S1024x2048, .i32⟩ : BufTy).Contents (Elt F)),
    StableHlo.binary main_v2 main_v5 main_v6 (addi : (⟨S1024x2048, .i32⟩ : BufTy).Contents (Elt F) → (⟨S1024x2048, .i32⟩ : BufTy).Contents (Elt F) → (⟨S1024x2048, .i32⟩ : BufTy).Contents (Elt F)),
    StableHlo.ternary main_v4 main_v6 main_v2 main_v7 (select : (⟨S1024x2048, .i1⟩ : BufTy).Contents (Elt F) → (⟨S1024x2048, .i32⟩ : BufTy).Contents (Elt F) → (⟨S1024x2048, .i32⟩ : BufTy).Contents (Elt F) → (⟨S1024x2048, .i32⟩ : BufTy).Contents (Elt F)),
    StableHlo.unary main_v7 main_v8 (broadcastInDim S1024x2048x1 ![0, 1] bcast_S1024x2048_S1024x2048x1_0_1 : (⟨S1024x2048, .i32⟩ : BufTy).Contents (Elt F) → (⟨S1024x2048x1, .i32⟩ : BufTy).Contents (Elt F)),
    StableHlo.binary main_c main_v8 main_v9 ((fun x i => Host.gather gather_S9x8_S1024x2048x1_S1024x2048x8_2_0_n_n_0_2_18 x i) : (⟨S9x8, .i1⟩ : BufTy).Contents (Elt F) → (⟨S1024x2048x1, .i32⟩ : BufTy).Contents (Elt F) → (⟨S1024x2048x8, .i1⟩ : BufTy).Contents (Elt F)),
    StableHlo.nullary main_c_7 (constantI S_ 32 5#32),
    StableHlo.unary main_c_7 main_v10 (broadcastInDim S1024x2048 ![] bcast_S_S1024x2048 : (⟨S_, .i32⟩ : BufTy).Contents (Elt F) → (⟨S1024x2048, .i32⟩ : BufTy).Contents (Elt F)),
    StableHlo.binary main_v1 main_v10 main_v11 (cmpi .eq : (⟨S1024x2048, .i32⟩ : BufTy).Contents (Elt F) → (⟨S1024x2048, .i32⟩ : BufTy).Contents (Elt F) → (⟨S1024x2048, .i1⟩ : BufTy).Contents (Elt F)),
    StableHlo.unary main_v11 main_v12 ((extui 32 · natLt_1_32) : (⟨S1024x2048, .i1⟩ : BufTy).Contents (Elt F) → (⟨S1024x2048, .i32⟩ : BufTy).Contents (Elt F)),
    StableHlo.nullary main_c_8 (constantI S_ 32 6#32),
    StableHlo.unary main_c_8 main_v13 (broadcastInDim S1024x2048 ![] bcast_S_S1024x2048 : (⟨S_, .i32⟩ : BufTy).Contents (Elt F) → (⟨S1024x2048, .i32⟩ : BufTy).Contents (Elt F)),
    StableHlo.binary main_v1 main_v13 main_v14 (cmpi .eq : (⟨S1024x2048, .i32⟩ : BufTy).Contents (Elt F) → (⟨S1024x2048, .i32⟩ : BufTy).Contents (Elt F) → (⟨S1024x2048, .i1⟩ : BufTy).Contents (Elt F)),
    StableHlo.unary main_v14 main_v15 ((extui 32 · natLt_1_32) : (⟨S1024x2048, .i1⟩ : BufTy).Contents (Elt F) → (⟨S1024x2048, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v12 : StableHlo.TRef sig ⟨S1024x2048, .i32⟩) main_call1.call0.v0 main_call1.call0.v1 (fun x v => Host.reduceWindow IntOp.addi ![1, 2048] ![1, 1] ![0, 2047] ![0, 0] x v reduceWindows_S1024x2048_S1024x2048_w1s1p0_0_w2048s1p2047_0 h_S_),
    StableHlo.TRef.nullary main_call2.call0.c (constantI S_ 32 0#32),
    StableHlo.TRef.unary main_call2.call0.c main_call2.call0.v0 (broadcastInDim S_ ![] bcast_S_S_),
    StableHlo.TRef.binary (.of main_v15 : StableHlo.TRef sig ⟨S1024x2048, .i32⟩) main_call2.call0.v0 main_call2.call0.v1 (fun x v => Host.reduceWindow IntOp.addi ![1, 2048] ![1, 1] ![0, 2047] ![0, 0] x v reduceWindows_S1024x2048_S1024x2048_w1s1p0_0_w2048s1p2047_0 h_S_),
    StableHlo.nullary main_v18 (iotaInDim S2048 32 0),
    StableHlo.nullary main_c_9 (constantI S_ 32 1#32),
    StableHlo.unary main_c_9 main_v19 (broadcastInDim S2048 ![] bcast_S_S2048 : (⟨S_, .i32⟩ : BufTy).Contents (Elt F) → (⟨S2048, .i32⟩ : BufTy).Contents (Elt F)),
    StableHlo.binary main_v18 main_v19 main_v20 (addi : (⟨S2048, .i32⟩ : BufTy).Contents (Elt F) → (⟨S2048, .i32⟩ : BufTy).Contents (Elt F) → (⟨S2048, .i32⟩ : BufTy).Contents (Elt F)),
    StableHlo.nullary main_c_10 (constantI S_ 32 2047#32),
    StableHlo.unary main_c_10 main_v21 (broadcastInDim S2048 ![] bcast_S_S2048 : (⟨S_, .i32⟩ : BufTy).Contents (Elt F) → (⟨S2048, .i32⟩ : BufTy).Contents (Elt F)),
    StableHlo.binary main_v20 main_v21 main_v22 (minsi : (⟨S2048, .i32⟩ : BufTy).Contents (Elt F) → (⟨S2048, .i32⟩ : BufTy).Contents (Elt F) → (⟨S2048, .i32⟩ : BufTy).Contents (Elt F)),
    StableHlo.nullary main_c_11 (constantI S_ 32 0#32),
    StableHlo.unary main_c_11 main_v23 (broadcastInDim S2048 ![] bcast_S_S2048 : (⟨S_, .i32⟩ : BufTy).Contents (Elt F) → (⟨S2048, .i32⟩ : BufTy).Contents (Elt F)),
    StableHlo.binary main_v22 main_v23 main_v24 (cmpi .slt : (⟨S2048, .i32⟩ : BufTy).Contents (Elt F) → (⟨S2048, .i32⟩ : BufTy).Contents (Elt F) → (⟨S2048, .i1⟩ : BufTy).Contents (Elt F)),
    StableHlo.nullary main_c_12 (constantI S_ 32 2048#32),
    StableHlo.unary main_c_12 main_v25 (broadcastInDim S2048 ![] bcast_S_S2048 : (⟨S_, .i32⟩ : BufTy).Contents (Elt F) → (⟨S2048, .i32⟩ : BufTy).Contents (Elt F)),
    StableHlo.binary main_v22 main_v25 main_v26 (addi : (⟨S2048, .i32⟩ : BufTy).Contents (Elt F) → (⟨S2048, .i32⟩ : BufTy).Contents (Elt F) → (⟨S2048, .i32⟩ : BufTy).Contents (Elt F)),
    StableHlo.ternary main_v24 main_v26 main_v22 main_v27 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v27 main_v28 (broadcastInDim S2048x1 ![0] bcast_S2048_S2048x1_0 : (⟨S2048, .i32⟩ : BufTy).Contents (Elt F) → (⟨S2048x1, .i32⟩ : BufTy).Contents (Elt F)),
    StableHlo.binary main_v16 main_v28 main_v29 ((fun x i => Host.gather gather_S1024x2048_S2048x1_S1024x2048_0_1_n_n_1_1_10241 x i) : (⟨S1024x2048, .i32⟩ : BufTy).Contents (Elt F) → (⟨S2048x1, .i32⟩ : BufTy).Contents (Elt F) → (⟨S1024x2048, .i32⟩ : BufTy).Contents (Elt F)),
    StableHlo.nullary main_c_13 (constantI S_ 32 0#32),
    StableHlo.unary main_c_13 main_v30 (broadcastInDim S2048 ![] bcast_S_S2048 : (⟨S_, .i32⟩ : BufTy).Contents (Elt F) → (⟨S2048, .i32⟩ : BufTy).Contents (Elt F)),
    StableHlo.binary main_v22 main_v30 main_v31 (cmpi .slt : (⟨S2048, .i32⟩ : BufTy).Contents (Elt F) → (⟨S2048, .i32⟩ : BufTy).Contents (Elt F) → (⟨S2048, .i1⟩ : BufTy).Contents (Elt F)),
    StableHlo.nullary main_c_14 (constantI S_ 32 2048#32),
    StableHlo.unary main_c_14 main_v32 (broadcastInDim S2048 ![] bcast_S_S2048 : (⟨S_, .i32⟩ : BufTy).Contents (Elt F) → (⟨S2048, .i32⟩ : BufTy).Contents (Elt F)),
    StableHlo.binary main_v22 main_v32 main_v33 (addi : (⟨S2048, .i32⟩ : BufTy).Contents (Elt F) → (⟨S2048, .i32⟩ : BufTy).Contents (Elt F) → (⟨S2048, .i32⟩ : BufTy).Contents (Elt F)),
    StableHlo.ternary main_v31 main_v33 main_v22 main_v34 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v34 main_v35 (broadcastInDim S2048x1 ![0] bcast_S2048_S2048x1_0 : (⟨S2048, .i32⟩ : BufTy).Contents (Elt F) → (⟨S2048x1, .i32⟩ : BufTy).Contents (Elt F)),
    StableHlo.binary main_v17 main_v35 main_v36 ((fun x i => Host.gather gather_S1024x2048_S2048x1_S1024x2048_0_1_n_n_1_1_10241 x i) : (⟨S1024x2048, .i32⟩ : BufTy).Contents (Elt F) → (⟨S2048x1, .i32⟩ : BufTy).Contents (Elt F) → (⟨S1024x2048, .i32⟩ : BufTy).Contents (Elt F)),
    StableHlo.nullary main_c_15 (constantI S_ 32 0#32),
    StableHlo.unary main_c_15 main_v37 (broadcastInDim S1024x2048 ![] bcast_S_S1024x2048 : (⟨S_, .i32⟩ : BufTy).Contents (Elt F) → (⟨S1024x2048, .i32⟩ : BufTy).Contents (Elt F)),
    StableHlo.binary main_v29 main_v37 main_v38 (cmpi .eq : (⟨S1024x2048, .i32⟩ : BufTy).Contents (Elt F) → (⟨S1024x2048, .i32⟩ : BufTy).Contents (Elt F) → (⟨S1024x2048, .i1⟩ : BufTy).Contents (Elt F)),
    StableHlo.unary main_v38 main_v39 (broadcastInDim S1024x2048x1 ![0, 1] bcast_S1024x2048_S1024x2048x1_0_1 : (⟨S1024x2048, .i1⟩ : BufTy).Contents (Elt F) → (⟨S1024x2048x1, .i1⟩ : BufTy).Contents (Elt F)),
    StableHlo.nullary main_c_16 (constantI S_ 32 0#32),
    StableHlo.unary main_c_16 main_v40 (broadcastInDim S1024x2048 ![] bcast_S_S1024x2048 : (⟨S_, .i32⟩ : BufTy).Contents (Elt F) → (⟨S1024x2048, .i32⟩ : BufTy).Contents (Elt F)),
    StableHlo.binary main_v36 main_v40 main_v41 (cmpi .eq : (⟨S1024x2048, .i32⟩ : BufTy).Contents (Elt F) → (⟨S1024x2048, .i32⟩ : BufTy).Contents (Elt F) → (⟨S1024x2048, .i1⟩ : BufTy).Contents (Elt F)),
    StableHlo.unary main_v41 main_v42 (broadcastInDim S1024x2048x1 ![0, 1] bcast_S1024x2048_S1024x2048x1_0_1 : (⟨S1024x2048, .i1⟩ : BufTy).Contents (Elt F) → (⟨S1024x2048x1, .i1⟩ : BufTy).Contents (Elt F)),
    StableHlo.TRef.unary (.of main_v42 : StableHlo.TRef sig ⟨S1024x2048x1, .i1⟩) main_call3.v0 (broadcastInDim S1024x2048x8 ![0, 1, 2] bcast_S1024x2048x1_S1024x2048x8_0_1_2),
    StableHlo.TRef.unary (.of main_c_1 : StableHlo.TRef sig ⟨S8, .i1⟩) main_call3.v1 (broadcastInDim S1024x2048x8 ![2] bcast_S8_S1024x2048x8_2),
    StableHlo.TRef.unary (.of main_c_2 : StableHlo.TRef sig ⟨S8, .i1⟩) main_call3.v2 (broadcastInDim S1024x2048x8 ![2] bcast_S8_S1024x2048x8_2),
    StableHlo.TRef.ternary main_call3.v0 main_call3.v1 main_call3.v2 main_call3.v3 select,
    StableHlo.TRef.unary (.of main_v39 : StableHlo.TRef sig ⟨S1024x2048x1, .i1⟩) main_call4.v0 (broadcastInDim S1024x2048x8 ![0, 1, 2] bcast_S1024x2048x1_S1024x2048x8_0_1_2),
    StableHlo.TRef.unary (.of main_c_0 : StableHlo.TRef sig ⟨S8, .i1⟩) main_call4.v1 (broadcastInDim S1024x2048x8 ![2] bcast_S8_S1024x2048x8_2),
    StableHlo.TRef.ternary main_call4.v0 main_call4.v1 (.of main_v43 : StableHlo.TRef sig ⟨S1024x2048x8, .i1⟩) main_call4.v2 select,
    StableHlo.nullary main_c_17 (constantI S_ 32 4#32),
    StableHlo.unary main_c_17 main_v45 (broadcastInDim S1024x2048 ![] bcast_S_S1024x2048 : (⟨S_, .i32⟩ : BufTy).Contents (Elt F) → (⟨S1024x2048, .i32⟩ : BufTy).Contents (Elt F)),
    StableHlo.binary main_v1 main_v45 main_v46 (cmpi .sge : (⟨S1024x2048, .i32⟩ : BufTy).Contents (Elt F) → (⟨S1024x2048, .i32⟩ : BufTy).Contents (Elt F) → (⟨S1024x2048, .i1⟩ : BufTy).Contents (Elt F)),
    StableHlo.nullary main_c_18 (constantI S_ 32 6#32),
    StableHlo.unary main_c_18 main_v47 (broadcastInDim S1024x2048 ![] bcast_S_S1024x2048 : (⟨S_, .i32⟩ : BufTy).Contents (Elt F) → (⟨S1024x2048, .i32⟩ : BufTy).Contents (Elt F)),
    StableHlo.binary main_v1 main_v47 main_v48 (cmpi .sle : (⟨S1024x2048, .i32⟩ : BufTy).Contents (Elt F) → (⟨S1024x2048, .i32⟩ : BufTy).Contents (Elt F) → (⟨S1024x2048, .i1⟩ : BufTy).Contents (Elt F)),
    StableHlo.binary main_v46 main_v48 main_v49 (andi : (⟨S1024x2048, .i1⟩ : BufTy).Contents (Elt F) → (⟨S1024x2048, .i1⟩ : BufTy).Contents (Elt F) → (⟨S1024x2048, .i1⟩ : BufTy).Contents (Elt F)),
    StableHlo.unary main_v49 main_v50 (broadcastInDim S1024x2048x1 ![0, 1] bcast_S1024x2048_S1024x2048x1_0_1 : (⟨S1024x2048, .i1⟩ : BufTy).Contents (Elt F) → (⟨S1024x2048x1, .i1⟩ : BufTy).Contents (Elt F)),
    StableHlo.TRef.unary (.of main_v50 : StableHlo.TRef sig ⟨S1024x2048x1, .i1⟩) main_call5.v0 (broadcastInDim S1024x2048x8 ![0, 1, 2] bcast_S1024x2048x1_S1024x2048x8_0_1_2),
    StableHlo.TRef.ternary main_call5.v0 (.of main_v44 : StableHlo.TRef sig ⟨S1024x2048x8, .i1⟩) (.of main_v9 : StableHlo.TRef sig ⟨S1024x2048x8, .i1⟩) main_call5.v1 select ]

set_option maxRecDepth 16384 in
set_option maxHeartbeats 4000000 in
/-- @main is that straight line: its two windows and the helpers' bodies unfold to it, and sequencing computes
    structurally, so the two sides are one chain of operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., nullary_bufs_sub .., nullary_bufs_sub .., nullary_bufs_sub .., unary_bufs_sub .., reshape_bufs_sub ..,
    nullary_bufs_sub .., nullary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., unary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., nullary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., unary_bufs_sub ..,
    nullary_bufs_sub .., unary_bufs_sub .., binary_bufs_sub .., unary_bufs_sub .., unary_bufs_sub .., unary_bufs_sub ..,
    unary_bufs_sub .., ternary_bufs_sub .., unary_bufs_sub .., unary_bufs_sub .., ternary_bufs_sub .., nullary_bufs_sub ..,
    unary_bufs_sub .., binary_bufs_sub .., nullary_bufs_sub .., unary_bufs_sub .., binary_bufs_sub .., binary_bufs_sub ..,
    unary_bufs_sub .., unary_bufs_sub .., ternary_bufs_sub ..⟩

attribute [local irreducible] Host.gather Host.reduceWindow in
set_option maxRecDepth 16384 in
set_option maxHeartbeats 4000000 in
/-- The fold at the result buffer is `refTerm` of the argument's contents: each operation's result at its own buffer is
    its function of its operands' contents and every other buffer keeps what it held; the helpers' typed references
    carry the buffers' own types, so their transports are the identity; what is left is `refTerm` unfolded. The gather
    and the windowed sum stay folded: the equation never looks inside them. -/
theorem out_eq (V : Valuation τ sig (Elt F)) :
    after ops V (main_v51 : DevRef τ sig) = refTerm (V (main_arg0 : DevRef τ sig)) := by
  after_results_simp
  simp only [TRef.ofBuf, TRef.toBuf, cast_eq]
  rfl

set_option maxRecDepth 16384 in
/-- No operation writes the argument's buffer. -/
theorem arg0_eq (V : Valuation τ sig (Elt F)) :
    after ops V (main_arg0 : DevRef τ sig) = V (main_arg0 : DevRef τ sig) := by
  simp only [after_cons, after_nil]
  rfl

set_option maxRecDepth 16384 in
set_option maxHeartbeats 4000000 in
/-- From any memory with zero counters every weakly fair execution of the reference's @main terminates, its result at
    `refTerm` of the argument array and the argument array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v51).trans (out_eq _), (h c main_arg0).trans (arg0_eq _)⟩)
    (run_seq scopedRefs_eq scopedSems_eq defs main (fun _ => ops) main_eq (fun _ => ops_sub) m ρ)

end Cert.ReferenceIdeal.Hand

end
-- ==== Proof.Gathers.lean ====
/-
  The reference's two gathers read at an index. Both take a start index of ONE component per result position and clamp it
  so that the slice fits: the table's gather reads row `clamp(idx[b, l, 0])` of the 9 × 8 table at column `ch`; the gather
  along the row reads column `clamp(idx[l, 0])` of row `b`.
-/
import proofs.«405645_j1279900254761_1_alg».proof.ReferenceIdeal
import proofs.«405645_j1279900254761_1_alg».proof.Proof.Gen.ReferenceIdeal
import Idealize.ShloMosaic.Lib.ValueIdx

noncomputable section

namespace Cert.ReferenceIdeal.Hand

open Idealize.ShloMosaic Idealize.ShloMosaic.ValueIdx Cert.ReferenceIdeal

/-- The table's gather at `(b, l, ch)`: the table at the row the start index `idx[b, l, 0]` names — read signed, clamped into
    0 … 8 — and column `ch`. -/
theorem gather_row_apply {α : Type} (x : S9x8.Idx → α) (idx : IVec S1024x2048x1 32) (b : Fin 1024) (l : Fin 2048) (ch : Fin 8) :
    Host.gather gather_S9x8_S1024x2048x1_S1024x2048x8_2_0_n_n_0_2_18 x idx (ix3 b l ch)
      = x (ix2 (⟨min (idx (ix3 b l (0 : Fin 1))).toInt.toNat 8, by omega⟩ : Fin 9) ch) := by
  unfold Host.gather
  congr 1
  funext a
  refine Fin.ext ?_
  match a with
  | ⟨0, _⟩ =>
    -- the row axis: in the start index map, collapsed, not batching
    show GatherDims.start gather_S9x8_S1024x2048x1_S1024x2048x8_2_0_n_n_0_2_18 (ix3 b l ch) idx 0
        + GatherDims.batchCoord gather_S9x8_S1024x2048x1_S1024x2048x8_2_0_n_n_0_2_18 (ix3 b l ch) 0
        + GatherDims.offCoord gather_S9x8_S1024x2048x1_S1024x2048x8_2_0_n_n_0_2_18 (ix3 b l ch) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S9x8_S1024x2048x1_S1024x2048x8_2_0_n_n_0_2_18.startIndexMap from
      List.mem_singleton.mpr rfl)]
    have hsi : gather_S9x8_S1024x2048x1_S1024x2048x8_2_0_n_n_0_2_18.siIdx (ix3 b l ch)
        ⟨List.idxOf (0 : Fin 2) gather_S9x8_S1024x2048x1_S1024x2048x8_2_0_n_n_0_2_18.startIndexMap,
          List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  | ⟨1, _⟩ =>
    -- the column axis: the slice's one offset axis, start 0
    show GatherDims.start gather_S9x8_S1024x2048x1_S1024x2048x8_2_0_n_n_0_2_18 (ix3 b l ch) idx 1
        + GatherDims.batchCoord gather_S9x8_S1024x2048x1_S1024x2048x8_2_0_n_n_0_2_18 (ix3 b l ch) 1
        + GatherDims.offCoord gather_S9x8_S1024x2048x1_S1024x2048x8_2_0_n_n_0_2_18 (ix3 b l ch) 1 = _
    rw [GatherDims.batchCoord_eq_zero _ _ _ List.not_mem_nil]
    unfold GatherDims.start
    rw [dif_neg (show (1 : Fin 2) ∉ gather_S9x8_S1024x2048x1_S1024x2048x8_2_0_n_n_0_2_18.startIndexMap from by decide)]
    unfold GatherDims.offCoord
    rw [dif_pos (show (1 : Fin 2) ∈ gather_S9x8_S1024x2048x1_S1024x2048x8_2_0_n_n_0_2_18.sKept from by decide)]
    simp only [Nat.zero_add]
    rfl

/-- The gather along the row at `(b, l)`: row `b` at the column the start index `idx[l, 0]` names — read signed, clamped into
    0 … 2047. -/
theorem gather_col_apply {α : Type} (x : S1024x2048.Idx → α) (idx : IVec S2048x1 32) (b : Fin 1024) (l : Fin 2048) :
    Host.gather gather_S1024x2048_S2048x1_S1024x2048_0_1_n_n_1_1_10241 x idx (ix2 b l)
      = x (ix2 b (⟨min (idx (ix2 l (0 : Fin 1))).toInt.toNat 2047, by omega⟩ : Fin 2048)) := by
  unfold Host.gather
  congr 1
  funext a
  refine Fin.ext ?_
  match a with
  | ⟨0, _⟩ =>
    -- the row axis: the slice's one offset axis, start 0
    show GatherDims.start gather_S1024x2048_S2048x1_S1024x2048_0_1_n_n_1_1_10241 (ix2 b l) idx 0
        + GatherDims.batchCoord gather_S1024x2048_S2048x1_S1024x2048_0_1_n_n_1_1_10241 (ix2 b l) 0
        + GatherDims.offCoord gather_S1024x2048_S2048x1_S1024x2048_0_1_n_n_1_1_10241 (ix2 b l) 0 = _
    rw [GatherDims.batchCoord_eq_zero _ _ _ List.not_mem_nil]
    unfold GatherDims.start
    rw [dif_neg (show (0 : Fin 2) ∉ gather_S1024x2048_S2048x1_S1024x2048_0_1_n_n_1_1_10241.startIndexMap from by decide)]
    unfold GatherDims.offCoord
    rw [dif_pos (show (0 : Fin 2) ∈ gather_S1024x2048_S2048x1_S1024x2048_0_1_n_n_1_1_10241.sKept from by decide)]
    simp only [Nat.zero_add]
    rfl
  | ⟨1, _⟩ =>
    -- the column axis: in the start index map, collapsed, not batching
    show GatherDims.start gather_S1024x2048_S2048x1_S1024x2048_0_1_n_n_1_1_10241 (ix2 b l) idx 1
        + GatherDims.batchCoord gather_S1024x2048_S2048x1_S1024x2048_0_1_n_n_1_1_10241 (ix2 b l) 1
        + GatherDims.offCoord gather_S1024x2048_S2048x1_S1024x2048_0_1_n_n_1_1_10241 (ix2 b l) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x2048_S2048x1_S1024x2048_0_1_n_n_1_1_10241.startIndexMap from
      List.mem_singleton.mpr rfl)]
    have hsi : gather_S1024x2048_S2048x1_S1024x2048_0_1_n_n_1_1_10241.siIdx (ix2 b l)
        ⟨List.idxOf (1 : Fin 2) gather_S1024x2048_S2048x1_S1024x2048_0_1_n_n_1_1_10241.startIndexMap,
          List.idxOf_lt_length_iff.2 (List.mem_singleton.mpr rfl)⟩ = ix2 l (0 : Fin 1) := by
      funext c; refine Fin.ext ?_
      match c with
      | ⟨0, _⟩ => rfl
      | ⟨1, _⟩ => rfl
    rw [hsi]
    rfl

end Cert.ReferenceIdeal.Hand

end
-- ==== Proof.RefValue.lean ====
/-
  The reference's term is the specification, where every token type is non-negative.

  First the facts about words: the reference's row index of a non-negative type word is the word capped at 8; the 9 × 8
  literal at that row is the fixed row of the types 0, 1, 2, 3 and 7 and zero elsewhere; the specification's bit splits by
  "the type is 4 to 6" the way the reference's last select does. Then the arrays read at an index: each broadcast keeps the
  coordinates it names, the table's gather reads the clamped row, the gather along the row reads one position ahead.
-/
import proofs.«405645_j1279900254761_1_alg».proof.Proof.RefTerm
import proofs.«405645_j1279900254761_1_alg».proof.Proof.Gathers
import proofs.«405645_j1279900254761_1_alg».proof.Proof.Spec
import Idealize.ShloMosaic.Lib.StableHlo.Predicate

noncomputable section

namespace Cert.ReferenceIdeal.Hand

open Idealize.ShloMosaic Idealize.ShloMosaic.ValueIdx Cert.ReferenceIdeal
open Idealize.ShloMosaic.StableHlo.Predicate
open Cert.ReferenceIdeal.Facts₀
open Cert.MaskSpec (maskBit row0 row1 row2 row3 row7 rowNo5 rowNo6 rowBoth tok count nxt ahead G)

/-- The table's row index the reference makes of a type word: the word clamped into 0 … 8, and a negative result moved up by 9. -/
def rowWord (g : BitVec 32) : BitVec 32 :=
  Scalar.select (IntOp.cmpi .slt (IntOp.minsi 8#32 (IntOp.maxsi 0#32 g)) 0#32)
    (IntOp.addi (IntOp.minsi 8#32 (IntOp.maxsi 0#32 g)) 9#32) (IntOp.minsi 8#32 (IntOp.maxsi 0#32 g))

theorem toNat_lt_of_nonneg (g : BitVec 32) (hg : (0#32).sle g = true) : g.toNat < 2 ^ 31 := by
  have h0 : (0#32 : BitVec 32).toInt = 0 := by decide
  simp only [BitVec.sle, h0, decide_eq_true_eq, BitVec.toInt_eq_toNat_cond] at hg
  have := g.isLt
  split at hg <;> omega

theorem rowWord_row (g : BitVec 32) (hg : (0#32).sle g = true) : min (rowWord g).toInt.toNat 8 = min g.toNat 8 := by
  have hlt := toNat_lt_of_nonneg g hg
  have hgi : g.toInt = g.toNat := toInt_eq_toNat_of_lt hlt
  have h0 : (0#32 : BitVec 32).toInt = 0 := by decide
  have h8 : (8#32 : BitVec 32).toInt = 8 := by decide
  have hmax : IntOp.maxsi 0#32 g = g := by
    unfold IntOp.maxsi
    rw [if_neg]
    simp only [BitVec.slt, hgi, h0, decide_eq_true_eq]
    omega
  unfold rowWord
  rw [hmax]
  by_cases h : 8 < g.toNat
  · have hmin : IntOp.minsi 8#32 g = 8#32 := by
      unfold IntOp.minsi
      rw [if_pos]
      simp only [BitVec.slt, hgi, h8, decide_eq_true_eq]
      omega
    rw [hmin]
    have : min g.toNat 8 = 8 := by omega
    rw [this]
    decide
  · have hmin : IntOp.minsi 8#32 g = g := by
      unfold IntOp.minsi
      rw [if_neg]
      simp only [BitVec.slt, hgi, h8, decide_eq_true_eq]
      omega
    rw [hmin]
    have hc : IntOp.cmpi .slt g 0#32 = 0#1 := by
      apply eq_zero_of_ne_one
      rw [slt_iff_toNat hlt (by decide)]
      simp
    rw [hc, select_zero, hgi]
    simp

/-- The table's bit at the row of a type word and a column: the fixed rows of types 0, 1, 2, 3 and 7, zero elsewhere. -/
def tableBit (g : BitVec 32) (ch : Fin 8) : BitVec 1 :=
  if g = 0#32 then row0 ch
  else if g = 1#32 then row1 ch
  else if g = 2#32 then row2 ch
  else if g = 3#32 then row3 ch
  else if g = 7#32 then row7 ch
  else 0#1

/-- The 9 × 8 literal read row-major at a row and a column. -/
theorem table_read (r : Fin 9) (ch : Fin 8) :
    lit0 (S9x8.rowMajor (ix2 r ch)) = tableBit (BitVec.ofNat 32 r.val) ch := by
  have hpos : S9x8.rowMajor (ix2 r ch)
      = ⟨r.val * 8 + ch.val, by have := r.isLt; have := ch.isLt; show _ < 72; omega⟩ := by
    apply Fin.ext
    rw [Shape.rowMajor_val_two]
    rfl
  rw [hpos]
  fin_cases r <;> fin_cases ch <;> rfl

theorem tableBit_big (g : BitVec 32) (h : 8 ≤ g.toNat) (ch : Fin 8) : tableBit g ch = 0#1 := by
  have hne : ∀ k : Nat, k < 8 → g ≠ BitVec.ofNat 32 k := by
    intro k hk he
    rw [he, BitVec.toNat_ofNat] at h
    omega
  unfold tableBit
  rw [if_neg (hne 0 (by omega)), if_neg (hne 1 (by omega)), if_neg (hne 2 (by omega)), if_neg (hne 3 (by omega)),
    if_neg (hne 7 (by omega))]

/-- The table at the clamped row of a non-negative type word. -/
theorem table_row (g : BitVec 32) (ch : Fin 8) (r : Fin 9) (hr : r.val = min g.toNat 8) :
    lit0 (S9x8.rowMajor (ix2 r ch)) = tableBit g ch := by
  rw [table_read]
  by_cases h : g.toNat < 8
  · have : BitVec.ofNat 32 r.val = g := by
      apply BitVec.eq_of_toNat_eq
      rw [BitVec.toNat_ofNat, hr]
      omega
    rw [this]
  · rw [tableBit_big g (by omega), tableBit_big _ (by rw [BitVec.toNat_ofNat, hr]; omega)]

theorem dyn_iff (g : BitVec 32) :
    IntOp.andi (IntOp.cmpi .sge g 4#32) (IntOp.cmpi .sle g 6#32) = 1#1 ↔ ((4#32).sle g = true ∧ g.sle 6#32 = true) := by
  show BitVec.ofBool ((4#32).sle g) &&& BitVec.ofBool (g.sle 6#32) = 1#1 ↔ _
  generalize (4#32).sle g = p
  generalize g.sle 6#32 = q
  cases p <;> cases q <;> decide

theorem select_eq_zero {α : Type} (n : BitVec 32) (a b : α) :
    Scalar.select (IntOp.cmpi .eq n 0#32) a b = if n = 0#32 then a else b := by
  by_cases h : n = 0#32
  · rw [if_pos h, cmpi_eq_iff.mpr h, select_one]
  · rw [if_neg h, eq_zero_of_ne_one (fun hc => h (cmpi_eq_iff.mp hc)), select_zero]

/-- The specification's bit, split as the reference splits it: by "the type is 4 to 6" first. -/
theorem maskBit_split (g n5 n6 : BitVec 32) (ch : Fin 8) :
    maskBit g n5 n6 ch
      = if ((4#32).sle g = true ∧ g.sle 6#32 = true) then
          (if n5 = 0#32 then rowNo5 ch else if n6 = 0#32 then rowNo6 ch else rowBoth ch)
        else tableBit g ch := by
  unfold maskBit tableBit
  by_cases hd : ((4#32).sle g = true ∧ g.sle 6#32 = true)
  · have h0 : g ≠ 0#32 := by rintro rfl; revert hd; decide
    have h1 : g ≠ 1#32 := by rintro rfl; revert hd; decide
    have h2 : g ≠ 2#32 := by rintro rfl; revert hd; decide
    have h3 : g ≠ 3#32 := by rintro rfl; revert hd; decide
    rw [if_pos hd, if_neg h0, if_neg h1, if_neg h2, if_neg h3, if_pos hd]
  · simp only [if_neg hd]

/-- THE WORD FACT: the reference's three selects on words are the specification's bit. -/
theorem word_fact (g n5 n6 : BitVec 32) (ch : Fin 8) (hg : (0#32).sle g = true) (r : Fin 9)
    (hr : r.val = min (rowWord g).toInt.toNat 8) :
    Scalar.select (IntOp.andi (IntOp.cmpi .sge g 4#32) (IntOp.cmpi .sle g 6#32))
        (Scalar.select (IntOp.cmpi .eq n5 0#32) (rowNo5 ch)
          (Scalar.select (IntOp.cmpi .eq n6 0#32) (rowNo6 ch) (rowBoth ch)))
        (lit0 (S9x8.rowMajor (ix2 r ch)))
      = maskBit g n5 n6 ch := by
  rw [maskBit_split, select_eq_zero, select_eq_zero, table_row g ch r (hr.trans (rowWord_row g hg))]
  by_cases hd : ((4#32).sle g = true ∧ g.sle 6#32 = true)
  · rw [if_pos hd, (dyn_iff g).mpr hd, select_one]
  · rw [if_neg hd, eq_zero_of_ne_one (mt (dyn_iff g).mp hd), select_zero]

theorem lit1_read (ch : Fin 8) : lit1 (S8.rowMajor (ix1 ch)) = rowNo5 ch := by
  have hpos : S8.rowMajor (ix1 ch) = ⟨ch.val, by have := ch.isLt; show _ < 8; omega⟩ := by
    apply Fin.ext
    rw [Shape.rowMajor_val_one]
  rw [hpos]
  fin_cases ch <;> rfl

theorem lit2_read (ch : Fin 8) : lit2 (S8.rowMajor (ix1 ch)) = rowNo6 ch := by
  have hpos : S8.rowMajor (ix1 ch) = ⟨ch.val, by have := ch.isLt; show _ < 8; omega⟩ := by
    apply Fin.ext
    rw [Shape.rowMajor_val_one]
  rw [hpos]
  fin_cases ch <;> rfl

theorem lit3_read (ch : Fin 8) : lit3 (S8.rowMajor (ix1 ch)) = rowBoth ch := by
  have hpos : S8.rowMajor (ix1 ch) = ⟨ch.val, by have := ch.isLt; show _ < 8; omega⟩ := by
    apply Fin.ext
    rw [Shape.rowMajor_val_one]
  rw [hpos]
  fin_cases ch <;> rfl

/-! ## The position read one ahead, as a word -/

/-- A word capped at 2047, and a negative result moved up by 2048: what the reference makes of a position word plus one. -/
def capWord (a : BitVec 32) : BitVec 32 :=
  Scalar.select (IntOp.cmpi .slt (IntOp.minsi a 2047#32) 0#32)
    (IntOp.addi (IntOp.minsi a 2047#32) 2048#32) (IntOp.minsi a 2047#32)

theorem capWord_col (a : BitVec 32) (ha : a.toNat < 2 ^ 31) : min (capWord a).toInt.toNat 2047 = min a.toNat 2047 := by
  have hai : a.toInt = a.toNat := toInt_eq_toNat_of_lt ha
  have h2047 : (2047#32 : BitVec 32).toInt = 2047 := by decide
  unfold capWord
  by_cases h : a.toNat < 2047
  · have hmin : IntOp.minsi a 2047#32 = a := by
      unfold IntOp.minsi
      rw [if_pos]
      simp only [BitVec.slt, hai, h2047, decide_eq_true_eq]
      omega
    rw [hmin]
    have hc : IntOp.cmpi .slt a 0#32 = 0#1 := by
      apply eq_zero_of_ne_one
      rw [slt_iff_toNat ha (by decide)]
      simp
    rw [hc, select_zero, hai]
    simp
  · have hmin : IntOp.minsi a 2047#32 = 2047#32 := by
      unfold IntOp.minsi
      rw [if_neg]
      simp only [BitVec.slt, hai, h2047, decide_eq_true_eq]
      omega
    rw [hmin]
    have : min a.toNat 2047 = 2047 := by omega
    rw [this]
    decide

/-- The start index of position `l`, clamped into the row, is the position read one ahead. -/
theorem ahead_col (l : Fin 2048) :
    min (capWord (IntOp.addi (BitVec.ofNat 32 l.val) 1#32)).toInt.toNat 2047 = (nxt l).val := by
  have hl := l.isLt
  have ha : (IntOp.addi (BitVec.ofNat 32 l.val) 1#32).toNat = l.val + 1 := by
    show ((BitVec.ofNat 32 l.val) + 1#32).toNat = _
    rw [BitVec.toNat_add, BitVec.toNat_ofNat]
    simp
    omega
  rw [capWord_col _ (by omega), ha]
  rfl

/-! ## Broadcasts read at an index -/

/-- A word per position as a column reads, at `(b, l, 0)`, the word at `(b, l)`. -/
theorem bcast_col_apply {α : Type} (h : S1024x2048.BroadcastsInDim S1024x2048x1 ![0, 1]) (v : S1024x2048.Idx → α)
    (b : Fin 1024) (l : Fin 2048) (z : Fin 1) :
    broadcastInDim S1024x2048x1 ![0, 1] h v (ix3 b l z) = v (ix2 b l) := by
  simp only [broadcastInDim]
  congr 1
  funext a
  match a with
  | ⟨0, _⟩ =>
    apply Fin.ext
    split
    · next h1 => exact absurd h1 (by decide +revert)
    · rfl
  | ⟨1, _⟩ =>
    apply Fin.ext
    split
    · next h1 => exact absurd h1 (by decide +revert)
    · rfl

/-- A column per position along the eight bits reads, at `(b, l, ch)`, the column at `(b, l, 0)`. -/
theorem bcast_bits_apply {α : Type} (h : S1024x2048x1.BroadcastsInDim S1024x2048x8 ![0, 1, 2]) (v : S1024x2048x1.Idx → α)
    (b : Fin 1024) (l : Fin 2048) (ch : Fin 8) :
    broadcastInDim S1024x2048x8 ![0, 1, 2] h v (ix3 b l ch) = v (ix3 b l (0 : Fin 1)) := by
  simp only [broadcastInDim]
  congr 1
  funext a
  match a with
  | ⟨0, _⟩ =>
    apply Fin.ext
    split
    · next h1 => exact absurd h1 (by decide +revert)
    · rfl
  | ⟨1, _⟩ =>
    apply Fin.ext
    split
    · next h1 => exact absurd h1 (by decide +revert)
    · rfl
  | ⟨2, _⟩ =>
    apply Fin.ext
    split
    · rfl
    · next h1 => exact absurd rfl h1

/-- A row of eight bits laid at every position reads, at `(b, l, ch)`, the row at `ch`. -/
theorem bcast_row_apply {α : Type} (h : S8.BroadcastsInDim S1024x2048x8 ![2]) (v : S8.Idx → α)
    (b : Fin 1024) (l : Fin 2048) (ch : Fin 8) :
    broadcastInDim S1024x2048x8 ![2] h v (ix3 b l ch) = v (ix1 ch) := by
  simp only [broadcastInDim]
  congr 1
  funext a
  match a with
  | ⟨0, _⟩ =>
    apply Fin.ext
    split
    · next h1 => exact absurd h1 (by decide +revert)
    · rfl

/-- A word per column position as a column of start indices reads, at `(l, 0)`, the word at `l`. -/
theorem bcast_idx_apply {α : Type} (h : S2048.BroadcastsInDim S2048x1 ![0]) (v : S2048.Idx → α) (l : Fin 2048) (z : Fin 1) :
    broadcastInDim S2048x1 ![0] h v (ix2 l z) = v (ix1 l) := by
  simp only [broadcastInDim]
  congr 1
  funext a
  match a with
  | ⟨0, _⟩ =>
    apply Fin.ext
    split
    · next h1 => exact absurd h1 (by decide +revert)
    · rfl

/-! ## The reference's stages read at an index -/

theorem cmpi_apply {s : Shape} {w : Nat} (p : CmpIPredicate) (a c : IVec s w) (i : s.Idx) :
    cmpi p a c i = IntOp.cmpi p (a i) (c i) := rfl

/-- The prefix sums the reference takes are the specification's counts: the same windowed sum of the same indicator. -/
theorem cum_eq (v : BitVec 32) (x : IVec S1024x2048x11 32) : cum v x = count v x := rfl

theorem rowIdx_apply (x : IVec S1024x2048x11 32) (b : Fin 1024) (l : Fin 2048) (z : Fin 1) :
    rowIdx x (ix3 b l z) = rowWord (tok x (ix2 b l)) := by
  dsimp only [rowIdx]
  rw [bcast_col_apply]
  rfl

theorem dyn_apply (x : IVec S1024x2048x11 32) (b : Fin 1024) (l : Fin 2048) (z : Fin 1) :
    dyn x (ix3 b l z)
      = IntOp.andi (IntOp.cmpi .sge (tok x (ix2 b l)) 4#32) (IntOp.cmpi .sle (tok x (ix2 b l)) 6#32) := by
  dsimp only [dyn]
  rw [bcast_col_apply]
  rfl

theorem aheadIdx_apply (l : Fin 2048) (z : Fin 1) :
    aheadIdx (ix2 l z) = capWord (IntOp.addi (BitVec.ofNat 32 l.val) 1#32) := by
  dsimp only [aheadIdx]
  rw [bcast_idx_apply]
  rfl

theorem none_apply (v : BitVec 32) (x : IVec S1024x2048x11 32) (b : Fin 1024) (l : Fin 2048) (z : Fin 1) :
    none v x (ix3 b l z) = IntOp.cmpi .eq (count v x (ix2 b (nxt l))) 0#32 := by
  have hr : ∀ (p : min (aheadIdx (ix2 l (0 : Fin 1))).toInt.toNat 2047 < 2048),
      (⟨min (aheadIdx (ix2 l (0 : Fin 1))).toInt.toNat 2047, p⟩ : Fin 2048) = nxt l := by
    intro p
    apply Fin.ext
    show min (aheadIdx (ix2 l (0 : Fin 1))).toInt.toNat 2047 = (nxt l).val
    rw [aheadIdx_apply, ahead_col]
  dsimp only [Hand.none]
  rw [bcast_col_apply, cmpi_apply, gather_col_apply, cum_eq, hr]
  rfl

/-- Where no token type is negative, the reference's result is `G` of its argument. (A negative type the reference clamps
    to row 0 of its table, while `G` gives it the zero row.) -/
theorem refTerm_eq (x : IVec S1024x2048x11 32) (hx : ∀ i, (0#32).sle (Cert.MaskSpec.tok x i) = true) :
    refTerm x = Cert.MaskSpec.G x := by
  funext i
  obtain ⟨b, l, ch, rfl⟩ : ∃ (b : Fin 1024) (l : Fin 2048) (ch : Fin 8), i = ix3 b l ch := ⟨i 0, i 1, i 2, eq_ix3 i⟩
  show Scalar.select (broadcastInDim S1024x2048x8 ![0, 1, 2] _ (dyn x) (ix3 b l ch))
      (Scalar.select (broadcastInDim S1024x2048x8 ![0, 1, 2] _ (none 5#32 x) (ix3 b l ch))
        (broadcastInDim S1024x2048x8 ![2] _ (fun i => lit1 (S8.rowMajor i)) (ix3 b l ch))
        (Scalar.select (broadcastInDim S1024x2048x8 ![0, 1, 2] _ (none 6#32 x) (ix3 b l ch))
          (broadcastInDim S1024x2048x8 ![2] _ (fun i => lit2 (S8.rowMajor i)) (ix3 b l ch))
          (broadcastInDim S1024x2048x8 ![2] _ (fun i => lit3 (S8.rowMajor i)) (ix3 b l ch))))
      (tableRow x (ix3 b l ch))
    = maskBit (tok x (ix2 b l)) (count 5#32 x (ix2 b (nxt l))) (count 6#32 x (ix2 b (nxt l))) ch
  rw [bcast_bits_apply, bcast_bits_apply, bcast_bits_apply, bcast_row_apply, bcast_row_apply, bcast_row_apply,
    dyn_apply, none_apply, none_apply, lit1_read, lit2_read, lit3_read]
  unfold tableRow
  rw [gather_row_apply]
  refine word_fact _ _ _ ch (hx _) _ ?_
  show min (rowIdx x (ix3 b l (0 : Fin 1))).toInt.toNat 8 = _
  rw [rowIdx_apply]

end Cert.ReferenceIdeal.Hand

end
-- ==== Proof.Pre.lean ====
/-
  What the precondition says: every token type (feature 0 of the input) is non-negative.
-/
import proofs.«405645_j1279900254761_1_alg».proof.Pre_any_inputs
import proofs.«405645_j1279900254761_1_alg».proof.Proof.Gen.Pre_any_inputs
import proofs.«405645_j1279900254761_1_alg».proof.Proof.Spec
import Idealize.ShloMosaic.Lib.ReduceAll
import Idealize.ShloMosaic.Lib.StableHlo.Predicate

noncomputable section

namespace Cert.Pre_any_inputs.Hand

open Idealize.ShloMosaic Idealize.ShloMosaic.ValueIdx Cert.Pre_any_inputs

/-- The printed predicate holding of an array says that none of its token types is negative. -/
theorem tok_nonneg {F : FTy → Type} [FloatOps F] (x : IVec S1024x2048x11 32)
    (h : Cert.Pre_any_inputs.fn (F := F) x = fun _ => 1#1) (i : Cert.MaskSpec.SBL.Idx) :
    (0#32).sle (Cert.MaskSpec.tok x i) = true := by
  have h0 := congrFun h ValueIdx.ix0
  unfold Cert.Pre_any_inputs.fn at h0
  haveI : Subsingleton S_.Idx := ⟨fun a b => funext fun d => d.elim0⟩
  -- every element of the compare "type ≥ 0" is 1
  have h1 := Host.reduce_andi_all _ _ _ _ _ h0 i
  -- at `i` the compare is of the token type with the broadcast scalar 0
  have h2 : BitVec.ofBool ((0#32).sle (Cert.MaskSpec.tok x i)) = 1#1 := h1
  cases hb : (0#32).sle (Cert.MaskSpec.tok x i) with
  | true => rfl
  | false => rw [hb] at h2; exact absurd h2 (by decide)

end Cert.Pre_any_inputs.Hand

end
-- ==== Proof.lean ====
/-
  The certificate of the mask kernel against its reference, where every token type (feature 0 of the input) is
  non-negative.

  Both programs map an integer array [1024, 2048, 11] to eight mask bits per position (Proof/Spec.lean's `G`): the bits
  are a fixed row for each of the types 0, 1, 2, 3 and 7, one of three rows for the types 4 to 6 — chosen by whether a
  type 5, and whether a type 6, has been counted along the row up to the NEXT position —, and zero for every other type.
  The kernel program computes the two counts on the host (prefix sums, shifted by one position), selects the bits in a
  kernel over blocks of 128 rows as 0 / 1 words with the bit axis in the middle, and transposes and tests them against zero
  on the host. The reference looks the fixed rows up in a table at the type clamped into 0 … 8 and gathers the counts at
  the next position. The two agree where the type is not negative: a negative type the reference clamps to table row 0,
  while the kernel's chain of tests gives it the zero row; hence the precondition.

  The kernel's frames are the generated ones. The kernel's value is read off the generated frame run (Proof/KerPay.lean: one
  element of an output block; Proof/KerBlocks.lean: the blocks tile the array; Proof/KerHost.lean: the arrays the region reads;
  Proof/KerRun.lean: the host lines after the region). The reference's run is a straight line of host operations
  (Proof/RefRun.lean) whose composed term (Proof/RefTerm.lean) is `G` (Proof/RefValue.lean, over the two gathers read at an
  index, Proof/Gathers.lean). Proof/Pre.lean reads the precondition.
-/
import proofs.«405645_j1279900254761_1_alg».proof.Defs
import proofs.«405645_j1279900254761_1_alg».proof.Proof.Gen.Kernel
import proofs.«405645_j1279900254761_1_alg».proof.Proof.Gen.Kernel.Skeleton
import proofs.«405645_j1279900254761_1_alg».proof.Proof.Gen.Kernel.Launch
import proofs.«405645_j1279900254761_1_alg».proof.Proof.Gen.Kernel.Points
import proofs.«405645_j1279900254761_1_alg».proof.Proof.Gen.Kernel.Frame
import proofs.«405645_j1279900254761_1_alg».proof.Proof.Gen.KernelIdeal
import proofs.«405645_j1279900254761_1_alg».proof.Proof.Gen.KernelIdeal.Skeleton
import proofs.«405645_j1279900254761_1_alg».proof.Proof.Gen.KernelIdeal.Launch
import proofs.«405645_j1279900254761_1_alg».proof.Proof.Gen.KernelIdeal.Points
import proofs.«405645_j1279900254761_1_alg».proof.Proof.Gen.KernelIdeal.Frame
import proofs.«405645_j1279900254761_1_alg».proof.Proof.Gen.ReferenceIdeal
import proofs.«405645_j1279900254761_1_alg».proof.Proof.Gen.Pre_any_inputs
import proofs.«405645_j1279900254761_1_alg».proof.Proof.KerRun
import proofs.«405645_j1279900254761_1_alg».proof.Proof.RefRun
import proofs.«405645_j1279900254761_1_alg».proof.Proof.RefValue
import proofs.«405645_j1279900254761_1_alg».proof.Proof.Pre
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both programs end at `G` of the argument array: the kernel program always, the reference because the precondition
    makes every token type non-negative (and the two argument arrays agree). -/
theorem algebraic : Cert.algebraic_KernelIdeal_ReferenceIdeal := by
  intro m ρ m' ρ' hpre hagree
  refine ⟨fun c => Cert.MaskSpec.G (m ((c.tc : Thread Cert.KernelIdeal.nD Cert.KernelIdeal.τ).loc Cert.KernelIdeal.main_arg0)),
    Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  rw [hagree c]
  exact Cert.ReferenceIdeal.Hand.refTerm_eq _ (fun i => Cert.Pre_any_inputs.Hand.tok_nonneg (F := Ideal) _ (hpre c) i)

theorem claim : Cert.Claim := ⟨Cert.Kernel.Gen.facts, Cert.KernelIdeal.Gen.facts, Cert.ReferenceIdeal.Gen.facts, Cert.Pre_any_inputs.Gen.facts,
  frame_k, frame_ki, frame_ri, trivial, algebraic⟩

end Cert.Proof

end
